-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1x65536 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S64x512 : Shape := ⟨2, ![64, 512]⟩
abbrev S16777216 : Shape := ⟨1, ![16777216]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S64x512 : S_.BroadcastsInDim S64x512 (![] : Fin 0 → Fin S64x512.rank)
  reducesTo_S64x512_S_d0_1 : S64x512.ReducesTo [0, 1] S_
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S131072 .f32) (main_arg1 : FVec F S131072 .f32) (main_arg2 : FVec F S64x512 .f32) (main_arg3 : IVec S16777216 32) (main_arg4 : IVec S16777216 32) (main_arg5 : FVec F S16777216 .f32) : IVec S_ 1 :=
  let main_v0 : FVec F S131072 .f32 := Host.absf main_arg0
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S131072 .f32 := Host.absf main_arg1
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S16777216 .f32 := Host.absf main_arg5
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S131072 : Shape := ⟨1, ![131072]⟩
abbrev S64x512 : Shape := ⟨2, ![64, 512]⟩
abbrev S16777216 : Shape := ⟨1, ![16777216]⟩
abbrev S32768 : Shape := ⟨1, ![32768]⟩
abbrev S_ : Shape := ⟨0, ![]⟩
abbrev S1 : Shape := ⟨1, ![1]⟩
abbrev S294913 : Shape := ⟨1, ![294913]⟩
abbrev S16777216x1 : Shape := ⟨2, ![16777216, 1]⟩
abbrev S2x1x8388608 : Shape := ⟨3, ![2, 1, 8388608]⟩
abbrev S2x32x16 : Shape := ⟨3, ![2, 32, 16]⟩
abbrev S1x1x65536 : Shape := ⟨3, ![1, 1, 65536]⟩
abbrev S1x32x16 : Shape := ⟨3, ![1, 32, 16]⟩
abbrev S1x65536 : Shape := ⟨2, ![1, 65536]⟩
abbrev S32x1 : Shape := ⟨2, ![32, 1]⟩
abbrev S16x1 : Shape := ⟨2, ![16, 1]⟩
abbrev S32x65536 : Shape := ⟨2, ![32, 65536]⟩
abbrev S16x65536 : Shape := ⟨2, ![16, 65536]⟩
abbrev S32x16 : Shape := ⟨2, ![32, 16]⟩
abbrev S1x512 : Shape := ⟨2, ![1, 512]⟩

abbrev nBuf : Space → Nat
  | .hbm => 26
  | .vmem => 7
  | .smem => 0
  | _ => 0

abbrev bufTy : (tb : Table) → Fin (tcTables nBuf tb) → BufTy
  | .hbm, ⟨0, _⟩ => ⟨S131072, .f32⟩
  | .hbm, ⟨1, _⟩ => ⟨S131072, .f32⟩
  | .hbm, ⟨2, _⟩ => ⟨S64x512, .f32⟩
  | .hbm, ⟨3, _⟩ => ⟨S16777216, .i32⟩
  | .hbm, ⟨4, _⟩ => ⟨S16777216, .i32⟩
  | .hbm, ⟨5, _⟩ => ⟨S16777216, .f32⟩
  | .hbm, ⟨6, _⟩ => ⟨S32768, .f32⟩
  | .hbm, ⟨7, _⟩ => ⟨S_, .f32⟩
  | .hbm, ⟨8, _⟩ => ⟨S1, .f32⟩
  | .hbm, ⟨9, _⟩ => ⟨S294913, .f32⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S16777216, .f32⟩
  | .hbm, ⟨19, _⟩ => ⟨S16777216, .f32⟩
  | .hbm, ⟨20, _⟩ => ⟨S2x1x8388608, .f32⟩
  | .hbm, ⟨21, _⟩ => ⟨S2x1x8388608, .i32⟩
  | .hbm, ⟨22, _⟩ => ⟨S2x32x16, .f32⟩
  | .hbm, ⟨23, _⟩ => ⟨S_, .f32⟩
  | .hbm, ⟨24, _⟩ => ⟨S32x16, .f32⟩
  | .hbm, ⟨25, _⟩ => ⟨S1x512, .f32⟩
  | .local _ .vmem, ⟨0, _⟩ => ⟨S1x1x65536, .f32⟩
  | .local _ .vmem, ⟨1, _⟩ => ⟨S1x1x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x32x16, .f32⟩
  | .local _ .vmem, ⟨5, _⟩ => ⟨S1x32x16, .f32⟩
  | .local _ .vmem, ⟨6, _⟩ => ⟨S1x32x16, .f32⟩
  | _, _ => ⟨S131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v42 : BitVec 1 := Scalar.cmpi .eq arg1 c127_i32
  let v43 : BitVec 32 := Scalar.extui v42
  let c0_i32_13 : BitVec 32 := 0#32
  let v44 : BitVec 1 := Scalar.cmpi .ne v43 c0_i32_13
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x512_S32768 : S64x512.ShapeCasts S32768
  bcast_S_S1 : S_.BroadcastsInDim S1 (![] : Fin 0 → Fin S1.rank)
  concatenates_S131072_S131072_S32768_S1_S294913_d0 : Shape.Concatenates [S131072, S131072, S32768, S1] S294913 0
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S2x1x8388608 : S16777216.ShapeCasts S2x1x8388608
  inb_S1x32x16_S1x32x16_0_0_0 : ∀ a, (![0, 0, 0] : Fin 3 → Nat) a + S1x32x16.size a ≤ S1x32x16.size a
  h_S1x32x16 : 0 < S1x32x16.numel
  shapeCasts_S1x32x16_S1x32x16 : S1x32x16.ShapeCasts S1x32x16
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S1x65536 : S1x1x65536.ShapeCasts S1x65536
  iota_S32x1_d0_w32 : S32x1.Iotas .tc 32 [0]
  iota_S16x1_d0_w32 : S16x1.Iotas .tc 32 [0]
  broadcasts_S1x65536_S32x65536 : S1x65536.Broadcasts S32x65536
  broadcasts_S32x1_S32x65536 : S32x1.Broadcasts S32x65536
  natLt_1_32 : 1 < 32
  bitsLt_bf16_f32 : FTy.bits .bf16 < FTy.bits .f32
  broadcasts_S1x65536_S16x65536 : S1x65536.Broadcasts S16x65536
  broadcasts_S16x1_S16x65536 : S16x1.Broadcasts S16x65536
  shapeCasts_S1x32x16_S32x16 : S1x32x16.ShapeCasts S32x16
  shapeCasts_S32x16_S1x32x16 : S32x16.ShapeCasts S1x32x16
  reducesTo_S2x32x16_S32x16_d0 : S2x32x16.ReducesTo [0] S32x16
  h_S_ : 0 < S_.numel
  shapeCasts_S32x16_S1x512 : S32x16.ShapeCasts S1x512
  gather_S294913_S16777216x1_S16777216_n_0_n_n_0_1_1_wf : GatherDims.WF S294913 S16777216x1 S16777216 [] [0] [] [0] [] 1 ![1]
  dot_S32x65536_S16x65536_S32x16_1_1_0_0_n_n_wf : DotDims.WF S32x65536 S16x65536 S32x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x65536.size a ≤ S2x1x8388608.size a
  hwx0_0 : ∀ i : grid0.Coords, EltTy.bits .f32 = 32 ∨ (Rect.block (s := S2x1x8388608) S1x1x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x65536.size a ≤ S2x1x8388608.size a
  hwx0_1 : ∀ i : grid0.Coords, EltTy.bits .i32 = 32 ∨ (Rect.block (s := S2x1x8388608) S1x1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S2x32x16.size a
  hwx0_2 : ∀ i : grid0.Coords, EltTy.bits .f32 = 32 ∨ (Rect.block (s := S2x32x16) S1x32x16.size (cc0_transform_2 i) (hinb0_2 i)).WholeWords (EltTy.packing .f32)

variable [Facts₀]

def gather_S294913_S16777216x1_S16777216_n_0_n_n_0_1_1 : GatherDims S294913 S16777216x1 S16777216 where
  offsetDims := []
  collapsedSliceDims := [0]
  operandBatchingDims := []
  startIndicesBatchingDims := []
  startIndexMap := [0]
  indexVectorDim := 1
  sliceSizes := ![1]
  wf := gather_S294913_S16777216x1_S16777216_n_0_n_n_0_1_1_wf
def dot_S32x65536_S16x65536_S32x16_1_1_0_0_n_n : DotDims S32x65536 S16x65536 S32x16 where
  lhsContracting := [1]
  rhsContracting := [1]
  lhsNonContracting := [0]
  rhsNonContracting := [0]
  lhsBatch := []
  rhsBatch := []
  wf := dot_S32x65536_S16x65536_S32x16_1_1_0_0_n_n_wf

abbrev win0_0 : Pipeline.Window sig grid0 :=
  Pipeline.Window.ofSpec (Memref.whole main_v11) S1x1x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x32x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072 : Shape := ⟨1, ![131072]⟩
abbrev S64x512 : Shape := ⟨2, ![64, 512]⟩
abbrev S16777216 : Shape := ⟨1, ![16777216]⟩
abbrev S32768 : Shape := ⟨1, ![32768]⟩
abbrev S_ : Shape := ⟨0, ![]⟩
abbrev S1 : Shape := ⟨1, ![1]⟩
abbrev S294913 : Shape := ⟨1, ![294913]⟩
abbrev S16777216x1 : Shape := ⟨2, ![16777216, 1]⟩
abbrev S512 : Shape := ⟨1, ![512]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S131072, .f32⟩
  | .hbm, ⟨1, _⟩ => ⟨S131072, .f32⟩
  | .hbm, ⟨2, _⟩ => ⟨S64x512, .f32⟩
  | .hbm, ⟨3, _⟩ => ⟨S16777216, .i32⟩
  | .hbm, ⟨4, _⟩ => ⟨S16777216, .i32⟩
  | .hbm, ⟨5, _⟩ => ⟨S16777216, .f32⟩
  | .hbm, ⟨6, _⟩ => ⟨S32768, .f32⟩
  | .hbm, ⟨7, _⟩ => ⟨S_, .f32⟩
  | .hbm, ⟨8, _⟩ => ⟨S1, .f32⟩
  | .hbm, ⟨9, _⟩ => ⟨S294913, .f32⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S512, .f32⟩
  | .hbm, ⟨22, _⟩ => ⟨S16777216x1, .i32⟩
  | .hbm, ⟨23, _⟩ => ⟨S512, .f32⟩
  | .hbm, ⟨24, _⟩ => ⟨S1x512, .f32⟩
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  shapeCasts_S64x512_S32768 : S64x512.ShapeCasts S32768
  bcast_S_S1 : S_.BroadcastsInDim S1 (![] : Fin 0 → Fin S1.rank)
  concatenates_S131072_S131072_S32768_S1_S294913_d0 : Shape.Concatenates [S131072, S131072, S32768, S1] S294913 0
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S512 : S_.BroadcastsInDim S512 (![] : Fin 0 → Fin S512.rank)
  bcast_S512_S1x512_1 : S512.BroadcastsInDim S1x512 (![1] : Fin 1 → Fin S1x512.rank)
  gather_S294913_S16777216x1_S16777216_n_0_n_n_0_1_1_wf : GatherDims.WF S294913 S16777216x1 S16777216 [] [0] [] [0] [] 1 ![1]
  scatter_S512_S16777216x1_S16777216_n_0_0_1_wf : ScatterDims.WF S512 S16777216x1 S16777216 [] [0] [0] 1

variable [Facts₀]

def gather_S294913_S16777216x1_S16777216_n_0_n_n_0_1_1 : GatherDims S294913 S16777216x1 S16777216 where
  offsetDims := []
  collapsedSliceDims := [0]
  operandBatchingDims := []
  startIndicesBatchingDims := []
  startIndexMap := [0]
  indexVectorDim := 1
  sliceSizes := ![1]
  wf := gather_S294913_S16777216x1_S16777216_n_0_n_n_0_1_1_wf
def scatter_S512_S16777216x1_S16777216_n_0_0_1 : ScatterDims S512 S16777216x1 S16777216 where
  updateWindowDims := []
  insertedWindowDims := [0]
  scatterDimsToOperandDims := [0]
  indexVectorDim := 1
  wf := scatter_S512_S16777216x1_S16777216_n_0_0_1_wf

class Facts : Prop extends Facts₀ where

variable [Facts]
-- ==== Proof.K.Around.lean ====
import proofs.«405905_j64458869178769_3_alg».proof.Proof.Gen.Kernel.Launch
import proofs.«405905_j64458869178769_3_alg».proof.Proof.Gen.Kernel.Skeleton
import proofs.«405905_j64458869178769_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The program around its one region, and what the runs of the body share.

@main is sixteen host operations (the table is concatenated, gathered at the source indices and multiplied by the
weights; the products and the destination words are re-laid as [2, 1, 8388608]), the region, and three host
operations (the two halves' results added and re-laid as [1, 512]). The region's grid is 2 × 128: point `t` is tile
`t % 128` of half `t / 128`. The body resets its accumulator at a half's first tile, adds the tile's contribution at
every tile, and copies the accumulator to the output block at a half's last tile. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result, which is none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host operation before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 0 either, and it is no array of the pipeline: it ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- No host operation before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 1 either, and it is no array of the pipeline: it ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- No host operation before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 2 either, and it is no array of the pipeline: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host operation before the region writes argument 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 3 either, and it is no array of the pipeline: it ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host operation before the region writes argument 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 4 either, and it is no array of the pipeline: it ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host operation before the region writes argument 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 5 either, and it is no array of the pipeline: it ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The products' window: its staging buffer holds the point's block at every point, for any proof data whose array is the
    region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The destination words' window, likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is a half's first tile", as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 128 = 0 :=
  (by decide +kernel : ∀ t : Fin grid0.N, isFirst (grid0.coords t) ↔ t.val % 128 = 0)

/-- "This is a half's last tile", as the body computes it. -/
abbrev isLast (i : grid0.Coords) : Prop := k0_cond2 i = 1#1
theorem isLast_iff : ∀ t : Fin cfg0.N, isLast (grid0.coords t) ↔ t.val % 128 = 127 :=
  (by decide +kernel : ∀ t : Fin grid0.N, isLast (grid0.coords t) ↔ t.val % 128 = 127)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from a half's last tile the body stores nothing into the output block, -/
theorem idle2 : ∀ t : Fin cfg0.N, ¬isLast (grid0.coords t) → cfg0.idle 2 (grid0.coords t) = true := by decide +kernel
/-- and the pipeline does not write it back there; -/
theorem noFlush2 : ∀ t : Fin cfg0.N, ¬isLast (grid0.coords t) → (cfg0.win 2).flush t = false := by decide +kernel
/-- at a half's last tile the body stores it whole. -/
theorem live2 : ∀ t : Fin cfg0.N, isLast (grid0.coords t) → cfg0.idle 2 (grid0.coords t) = false := by decide +kernel

/-! ## The memrefs the body is called with -/

/-- One staging buffer of the output window, through which its contents are stated. -/
abbrev outView : View sig .tc .vmem S1x32x16 .f32 := (Memref.whole cc0_stg2_0 : Memref sig .tc .vmem S1x32x16 .f32).view
abbrev mIn0 (t : Fin cfg0.N) : Memref sig .tc .vmem S1x1x65536 .f32 := win0_0.stage (cfg0.slots t 0)
abbrev hIn0 (t : Fin cfg0.N) : (mIn0 t).IsWhole := hstage0_0 ((cfg0.slots t 0).cast nbuf0_0)
abbrev mIn1 (t : Fin cfg0.N) : Memref sig .tc .vmem S1x1x65536 .i32 := win0_1.stage (cfg0.slots t 1)
abbrev hIn1 (t : Fin cfg0.N) : (mIn1 t).IsWhole := hstage0_1 ((cfg0.slots t 1).cast nbuf0_1)
abbrev mOut (t : Fin cfg0.N) : Memref sig .tc .vmem S1x32x16 .f32 := win0_2.stage (cfg0.slots t 2)
abbrev hOut (t : Fin cfg0.N) : (mOut t).IsWhole := hstage0_2 ((cfg0.slots t 2).cast nbuf0_2)
/-- The accumulator: a scoped buffer of the kernel's own, carried from point to point. -/
abbrev mAcc : Memref sig .tc .vmem S1x32x16 .f32 := Memref.whole cc0_scratch0
abbrev accView : View sig .tc .vmem S1x32x16 .f32 := mAcc.view

/-- What the launch hands the region beside the windows: the accumulator at some contents, and the generator register. -/
theorem invA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.Kernel.Hand

end
-- ==== Proof.K.RunA.lean ====
import proofs.«405905_j64458869178769_3_alg».proof.Proof.K.Around

/-! The body at a half's first tile (not its last): the accumulator is reset and the tile's contribution added; the
output block is not touched. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a half's first tile: from the two input blocks at `x`, `d`, the output buffer at any `o` and the accumulator at
    anything, the body ends with the inputs and the output buffer as they were and the accumulator overwritten by the
    listed stores (the list is what the symbolic run finds). -/
noncomputable def runFirst (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) :
    { LS : List (View.Piece (Elt F) S1x32x16 .f32) //
      ∀ (o : Vec F S1x32x16 .f32) (E : Set ℕ) (K : PUnit → sProp 𝕄),
        iprop(owns (c : Thread nD τ) aX fullShare x ∗ owns (c : Thread nD τ) aD fullShare d ∗ owns (c : Thread nD τ) aO fullShare o ∗ (∃ s, owns (c : Thread nD τ) aS fullShare s)
            ∗ (iprop(owns (c : Thread nD τ) aX fullShare x ∗ owns (c : Thread nD τ) aD fullShare d ∗ owns (c : Thread nD τ) aO fullShare o ∗ (∃ f, aS.view.loc (c : Thread nD τ) ↦[aS.view.set]{fullShare} aS.view.writes (Elt F) f LS)) -∗ K ⟨⟩))
          ⊢ wp frame (wpE (defs₀ (F := F)) Variants.none c none) E (cc0__scatter_kernel i aX hX aD hD aO hO aS hS) K } := by
  refine ⟨?_, fun o E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := hX.eq_unread hf0; obtain rfl := hD.eq_unread hf1; obtain rfl := hO.eq_unread hf2
    sl_exec (disch := first | exact h0 | exact h1)
    sl_step
    iapply Hk
    isplitl [H0]
    · iexists _; isplitr; · ipureintro; exact hX.read_unread _
      iexact H0
    isplitl [H1]
    · iexists _; isplitr; · ipureintro; exact hD.read_unread _
      iexact H1
    isplitl [H2]
    · iexists _; isplitr; · ipureintro; exact hO.read_unread _
      iexact H2
    iexists _; iexact HS

end Cert.Kernel.Hand

end
-- ==== Proof.K.RunB.lean ====
import proofs.«405905_j64458869178769_3_alg».proof.Proof.K.RunA

/-! The body at a tile that is neither a half's first nor its last: the tile's contribution is added to the accumulator
the tile before left; the output block is not touched. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle tile: from the two input blocks at `x`, `d`, the output buffer at any `o` and the accumulator at `s`, the
    body ends with the inputs and the output buffer as they were and the accumulator overwritten by the listed stores. -/
noncomputable def runMiddle (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) :
    { LS : List (View.Piece (Elt F) S1x32x16 .f32) //
      ∀ (o : Vec F S1x32x16 .f32) (E : Set ℕ) (K : PUnit → sProp 𝕄),
        iprop(owns (c : Thread nD τ) aX fullShare x ∗ owns (c : Thread nD τ) aD fullShare d ∗ owns (c : Thread nD τ) aO fullShare o ∗ owns (c : Thread nD τ) aS fullShare s
            ∗ (iprop(owns (c : Thread nD τ) aX fullShare x ∗ owns (c : Thread nD τ) aD fullShare d ∗ owns (c : Thread nD τ) aO fullShare o ∗ (∃ f, aS.view.loc (c : Thread nD τ) ↦[aS.view.set]{fullShare} aS.view.writes (Elt F) f LS)) -∗ K ⟨⟩))
          ⊢ wp frame (wpE (defs₀ (F := F)) Variants.none c none) E (cc0__scatter_kernel i aX hX aD hD aO hO aS hS) K } := by
  refine ⟨?_, fun o E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := hX.eq_unread hf0; obtain rfl := hD.eq_unread hf1; obtain rfl := hO.eq_unread hf2; obtain rfl := hS.eq_unread hfs
    sl_exec (disch := first | exact h0 | exact h1)
    sl_step
    iapply Hk
    isplitl [H0]
    · iexists _; isplitr; · ipureintro; exact hX.read_unread _
      iexact H0
    isplitl [H1]
    · iexists _; isplitr; · ipureintro; exact hD.read_unread _
      iexact H1
    isplitl [H2]
    · iexists _; isplitr; · ipureintro; exact hO.read_unread _
      iexact H2
    iexists _; iexact HS

end Cert.Kernel.Hand

end
-- ==== Proof.K.RunC.lean ====
import proofs.«405905_j64458869178769_3_alg».proof.Proof.K.RunB

/-! The body at a half's last tile (not its first): the tile's contribution is added to the accumulator, and the
accumulator is copied to the output block. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a half's last tile: from the two input blocks at `x`, `d`, the output buffer at anything and the accumulator at
    `s`, the body ends with the inputs as they were, and the output buffer and the accumulator each overwritten by its
    listed stores. -/
noncomputable def runLast (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) :
    Σ' (LO : List (View.Piece (Elt F) S1x32x16 .f32)), { LS : List (View.Piece (Elt F) S1x32x16 .f32) //
      ∀ (E : Set ℕ) (K : PUnit → sProp 𝕄),
        iprop(owns (c : Thread nD τ) aX fullShare x ∗ owns (c : Thread nD τ) aD fullShare d ∗ (∃ o, owns (c : Thread nD τ) aO fullShare o) ∗ owns (c : Thread nD τ) aS fullShare s
            ∗ (iprop(owns (c : Thread nD τ) aX fullShare x ∗ owns (c : Thread nD τ) aD fullShare d ∗ (∃ f, aO.view.loc (c : Thread nD τ) ↦[aO.view.set]{fullShare} aO.view.writes (Elt F) f LO) ∗ (∃ f, aS.view.loc (c : Thread nD τ) ↦[aS.view.set]{fullShare} aS.view.writes (Elt F) f LS)) -∗ K ⟨⟩))
          ⊢ wp frame (wpE (defs₀ (F := F)) Variants.none c none) E (cc0__scatter_kernel i aX hX aD hD aO hO aS hS) K } := by
  refine ⟨?_, ?_, fun E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := hX.eq_unread hf0; obtain rfl := hD.eq_unread hf1; obtain rfl := hS.eq_unread hfs
    sl_exec (disch := first | exact h0 | exact h1)
    sl_step
    iapply Hk
    isplitl [H0]
    · iexists _; isplitr; · ipureintro; exact hX.read_unread _
      iexact H0
    isplitl [H1]
    · iexists _; isplitr; · ipureintro; exact hD.read_unread _
      iexact H1
    isplitl [H2]; · iexists _; iexact H2
    iexists _; iexact HS

end Cert.Kernel.Hand

end
-- ==== Proof.K.Frame.lean ====
import proofs.«405905_j64458869178769_3_alg».proof.Proof.K.RunC

/-! The frame of the kernel's program: what the accumulator and the output block hold point by point, the proof data of
the pipeline, the body's obligation at every point, and the run of @main. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

/-- The accumulator after a half's first tile: the run's stores read back. -/
def accFirst (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) : Vec F S1x32x16 .f32 :=
  accView.read (Elt F) (accView.writes (Elt F) accView.junk (runFirst c i aX hX aD hD aO hO aS hS h0 h1 x d).1)

/-- Those stores cover the accumulator. -/
theorem accFirst_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) (y : S1x32x16.Idx) :
    ∃ pc ∈ (runFirst c i aX hX aD hD aO hO aS hS h0 h1 x d).1, y ∈ pc.1.set :=
  View.cover_of_tiledL (runFirst c i aX hX aD hD aO hO aS hS h0 h1 x d).1 S1x32x16.size (by sl_kernel_rfl) y

/-- The accumulator after a middle tile, over what the tile before left. -/
def accMiddle (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) : Vec F S1x32x16 .f32 :=
  accView.read (Elt F) (accView.writes (Elt F) accView.junk (runMiddle c i aX hX aD hD aO hO aS hS h0 h1 x d s).1)

theorem accMiddle_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) (y : S1x32x16.Idx) :
    ∃ pc ∈ (runMiddle c i aX hX aD hD aO hO aS hS h0 h1 x d s).1, y ∈ pc.1.set :=
  View.cover_of_tiledL (runMiddle c i aX hX aD hD aO hO aS hS h0 h1 x d s).1 S1x32x16.size (by sl_kernel_rfl) y

/-- The accumulator after a half's last tile, over what the tile before left. -/
def accLast (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) : Vec F S1x32x16 .f32 :=
  accView.read (Elt F) (accView.writes (Elt F) accView.junk (runLast c i aX hX aD hD aO hO aS hS h0 h1 x d s).2.1)

theorem accLast_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) (y : S1x32x16.Idx) :
    ∃ pc ∈ (runLast c i aX hX aD hD aO hO aS hS h0 h1 x d s).2.1, y ∈ pc.1.set :=
  View.cover_of_tiledL (runLast c i aX hX aD hD aO hO aS hS h0 h1 x d s).2.1 S1x32x16.size (by sl_kernel_rfl) y

/-- The output block after a half's last tile. -/
def outLast (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) : Vec F S1x32x16 .f32 :=
  outView.read (Elt F) (outView.writes (Elt F) outView.junk (runLast c i aX hX aD hD aO hO aS hS h0 h1 x d s).1)

theorem outLast_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) (y : S1x32x16.Idx) :
    ∃ pc ∈ (runLast c i aX hX aD hD aO hO aS hS h0 h1 x d s).1, y ∈ pc.1.set :=
  View.cover_of_tiledL (runLast c i aX hX aD hD aO hO aS hS h0 h1 x d s).1 S1x32x16.size (by sl_kernel_rfl) y

/-! ## The accumulator and the output block, point by point -/

theorem not_last_of_first {n : ℕ} (h : n % 128 = 0) : ¬n % 128 = 127 := by omega

/-- What the accumulator holds after the body at position `n`: reset and one tile added at a half's first tile, one tile
    added over what position `n - 1` left elsewhere. -/
def accAt (c : Dev nD) : (n : ℕ) → n < cfg0.N → Vec F S1x32x16 .f32
  | 0, hn => accFirst c (grid0.coords ⟨0, hn⟩) (mIn0 ⟨0, hn⟩) (hIn0 ⟨0, hn⟩) (mIn1 ⟨0, hn⟩) (hIn1 ⟨0, hn⟩) (mOut ⟨0, hn⟩) (hOut ⟨0, hn⟩) mAcc (Memref.isWhole_whole _) ((isFirst_iff ⟨0, hn⟩).mpr (Nat.zero_mod _)) (fun h => not_last_of_first (Nat.zero_mod 128) ((isLast_iff ⟨0, hn⟩).mp h)) (iblk m c 0 ⟨0, hn⟩) (iblk m c 1 ⟨0, hn⟩)
  | n + 1, hn =>
    if h0 : (n + 1) % 128 = 0 then
      accFirst c (grid0.coords ⟨n + 1, hn⟩) (mIn0 ⟨n + 1, hn⟩) (hIn0 ⟨n + 1, hn⟩) (mIn1 ⟨n + 1, hn⟩) (hIn1 ⟨n + 1, hn⟩) (mOut ⟨n + 1, hn⟩) (hOut ⟨n + 1, hn⟩) mAcc (Memref.isWhole_whole _) ((isFirst_iff ⟨n + 1, hn⟩).mpr h0) (fun h => not_last_of_first h0 ((isLast_iff ⟨n + 1, hn⟩).mp h)) (iblk m c 0 ⟨n + 1, hn⟩) (iblk m c 1 ⟨n + 1, hn⟩)
    else if h1 : (n + 1) % 128 = 127 then
      accLast c (grid0.coords ⟨n + 1, hn⟩) (mIn0 ⟨n + 1, hn⟩) (hIn0 ⟨n + 1, hn⟩) (mIn1 ⟨n + 1, hn⟩) (hIn1 ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (accAt c n (Nat.lt_of_succ_lt hn))
    else
      accMiddle c (grid0.coords ⟨n + 1, hn⟩) (mIn0 ⟨n + 1, hn⟩) (hIn0 ⟨n + 1, hn⟩) (mIn1 ⟨n + 1, hn⟩) (hIn1 ⟨n + 1, hn⟩) (mOut ⟨n + 1, hn⟩) (hOut ⟨n + 1, hn⟩) mAcc (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (accAt c n (Nat.lt_of_succ_lt hn))

theorem accAt_first (c : Dev nD) (t : Fin cfg0.N) (h0 : t.val % 128 = 0) :
    accAt m c t.val t.isLt = accFirst c (grid0.coords t) (mIn0 t) (hIn0 t) (mIn1 t) (hIn1 t) (mOut t) (hOut t) mAcc (Memref.isWhole_whole _) ((isFirst_iff t).mpr h0) (fun h => not_last_of_first h0 ((isLast_iff t).mp h)) (iblk m c 0 t) (iblk m c 1 t) := by
  obtain ⟨n, hn⟩ := t
  cases n with
  | zero => exact rfl
  | succ n => exact (dif_pos h0).trans rfl

theorem accAt_last (c : Dev nD) (t : Fin cfg0.N) (h0 : ¬t.val % 128 = 0) (h1 : t.val % 128 = 127) :
    accAt m c t.val t.isLt = accLast c (grid0.coords t) (mIn0 t) (hIn0 t) (mIn1 t) (hIn1 t) (mOut t) (hOut t) mAcc (Memref.isWhole_whole _) (fun h => h0 ((isFirst_iff t).mp h)) ((isLast_iff t).mpr h1) (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem accAt_middle (c : Dev nD) (t : Fin cfg0.N) (h0 : ¬t.val % 128 = 0) (h1 : ¬t.val % 128 = 127) :
    accAt m c t.val t.isLt = accMiddle c (grid0.coords t) (mIn0 t) (hIn0 t) (mIn1 t) (hIn1 t) (mOut t) (hOut t) mAcc (Memref.isWhole_whole _) (fun h => h0 ((isFirst_iff t).mp h)) (fun h => h1 ((isLast_iff t).mp h)) (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- What the output block holds after the body at point `t`: at a half's last tile the copy of the accumulator; elsewhere
    the body stores nothing there and the value is not consulted. -/
def outAt (c : Dev nD) (t : Fin cfg0.N) : Vec F S1x32x16 .f32 :=
  if h1 : t.val % 128 = 127 then
    outLast c (grid0.coords t) (mIn0 t) (hIn0 t) (mIn1 t) (hIn1 t) (mOut t) (hOut t) mAcc (Memref.isWhole_whole _) (fun h => not_last_of_first ((isFirst_iff t).mp h) h1) ((isLast_iff t).mpr h1) (iblk m c 0 t) (iblk m c 1 t) (accAt m c (t.val - 1) (Nat.lt_of_le_of_lt (Nat.sub_le _ _) t.isLt))
  else outView.read (Elt F) outView.junk

theorem outAt_last (c : Dev nD) (t : Fin cfg0.N) (h1 : t.val % 128 = 127) :
    outAt m c t = outLast c (grid0.coords t) (mIn0 t) (hIn0 t) (mIn1 t) (hIn1 t) (mOut t) (hOut t) mAcc (Memref.isWhole_whole _) (fun h => not_last_of_first ((isFirst_iff t).mp h) h1) ((isLast_iff t).mpr h1) (iblk m c 0 t) (iblk m c 1 t) (accAt m c (t.val - 1) (Nat.lt_of_le_of_lt (Nat.sub_le _ _) t.isLt)) :=
  dif_pos h1

/-! ## The region's invariant -/

/-- Before position `n`: at the start what the launch hands over (the accumulator at anything); afterwards the accumulator
    at what position `n - 1` left, and the generator register at some state. -/
def invAt (c : Dev nD) : (n : ℕ) → n ≤ cfg0.N → sProp 𝕄
  | 0, _ => Pipeline.ΦA spec0 c
  | n + 1, hn => iprop(iprop(owns (c : Thread nD τ) mAcc fullShare (accAt m c n hn)) ∗ (∃ r, prngReg c r))

theorem invAt_zero (c : Dev nD) (n : ℕ) (h : n ≤ cfg0.N) (hz : n = 0) : invAt m c n h = Pipeline.ΦA spec0 c := by
  subst hz; rfl

theorem invAt_succ (c : Dev nD) (n : ℕ) (hn : n < cfg0.N) :
    invAt m c (n + 1) hn = iprop(iprop(owns (c : Thread nD τ) mAcc fullShare (accAt m c n hn)) ∗ (∃ r, prngReg c r)) := rfl

theorem invAt_pos (c : Dev nD) (n : ℕ) (h : n ≤ cfg0.N) (hz : n ≠ 0) :
    invAt m c n h = iprop(iprop(owns (c : Thread nD τ) mAcc fullShare (accAt m c (n - 1) (by omega))) ∗ (∃ r, prngReg c r)) := by
  cases n with
  | zero => exact absurd rfl hz
  | succ n => rfl

/-! ## The pipeline's proof data -/

/-- On core `c`: the arrays as the region finds them; after the body at point `t` each input's buffer at its block and the
    output's at `outAt`; the invariant `invAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := invAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = invAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mIn0 t) fullShare ((dats m 0 c).before 0 t d))
    ∗ (∃ d, owns (c : Thread nD τ) (mIn1 t) fullShare ((dats m 0 c).before 1 t d))
    ∗ (∃ d, owns (c : Thread nD τ) (mOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the point is a half's first tile, its last, or neither,
    and that case's run applies; the invariant hands over the accumulator at what the point before left (at anything at
    the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = invAt m c (t.val + 1) t.isLt from rfl, invAt_succ]
  rw [show (dats m 0 c).leavesExact 0 t = owns (c : Thread nD τ) (mIn0 t) fullShare ((dats m 0 c).after 0 t) from by
    unfold Dat.leavesExact; rw [live0 t], after_0]
  rw [show (dats m 0 c).leavesExact 1 t = owns (c : Thread nD τ) (mIn1 t) fullShare ((dats m 0 c).after 1 t) from by
    unfold Dat.leavesExact; rw [live1 t], after_1]
  have hN : t.val < 256 := lt_of_lt_of_eq t.isLt (show cfg0.N = 256 from N_0)
  by_cases h0 : t.val % 128 = 0
  · have h1 : ¬t.val % 128 = 127 := not_last_of_first h0
    rw [Dat.leavesExact_idle (dats m 0 c) 2 t (idle2 t (fun h => h1 ((isLast_iff t).mp h))) (noFlush2 t (fun h => h1 ((isLast_iff t).mp h)))]
    rw [accAt_first m c t h0]
    unfold accFirst; (try dsimp only)
    by_cases hz : t.val = 0
    · rw [inv_castSucc m c t, invAt_zero m c _ _ hz, invA_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accFirst_cover c _ _ _ _ _ _ _ _ _ _ _ _ _)
        iexact Hg
      isplitl [Ho]; · iexact Ho
      isplitl [H0]; · iexact H0
      isplitl [H1]; · iexact H1
      iexists _; iexact H2
    · rw [inv_castSucc m c t, invAt_pos m c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (accFirst_cover c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 128 = 127
    · rw [show (dats m 0 c).leavesExact 2 t = owns (c : Thread nD τ) (mOut t) fullShare ((dats m 0 c).after 2 t) from by
        unfold Dat.leavesExact; rw [live2 t ((isLast_iff t).mpr h1)], after_2]
      rw [accAt_last m c t h0 h1, outAt_last m c t h1]
      unfold accLast outLast; (try dsimp only)
      rw [inv_castSucc m c t, invAt_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (accLast_cover c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dats m 0 c) 2 t (idle2 t (fun h => h1 ((isLast_iff t).mp h))) (noFlush2 t (fun h => h1 ((isLast_iff t).mp h)))]
      rw [accAt_middle m c t h0 h1]
      unfold accMiddle; (try dsimp only)
      rw [inv_castSucc m c t, invAt_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((isFirst_iff t).mp h)) (fun h => h1 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accMiddle_cover c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives it back: what the accumulator holds is forgotten. -/
theorem inv_out (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = invAt m c (Fin.last cfg0.N).val (Nat.le_of_lt_succ (Fin.last cfg0.N).isLt) from rfl,
    invAt_pos m c _ _ hne, invA_eq]
  iintro ⟨HS, Hg⟩
  isplitl [HS]
  · iexists _; iexact HS
  iexact Hg

/-! ## The run and the frame -/

set_option backward.isDefEq.respectTransparency.types false in
/-- From any memory with zero counters every weakly fair execution of @main terminates, each array of the pipeline ending
    at what the proof data's write-backs leave and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := inv_in m) (hout := inv_out m)

/-- The six argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c)⟩) (run_main m ρ)

end Cert.Kernel.Hand

end
-- ==== Proof.KI.Around.lean ====
import proofs.«405905_j64458869178769_3_alg».proof.Proof.Gen.KernelIdeal.Launch
import proofs.«405905_j64458869178769_3_alg».proof.Proof.Gen.KernelIdeal.Skeleton
import proofs.«405905_j64458869178769_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The program around its one region, and what the runs of the body share.

@main is sixteen host operations (the table is concatenated, gathered at the source indices and multiplied by the
weights; the products and the destination words are re-laid as [2, 1, 8388608]), the region, and three host
operations (the two halves' results added and re-laid as [1, 512]). The region's grid is 2 × 128: point `t` is tile
`t % 128` of half `t / 128`. The body resets its accumulator at a half's first tile, adds the tile's contribution at
every tile, and copies the accumulator to the output block at a half's last tile. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result, which is none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host operation before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 0 either, and it is no array of the pipeline: it ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- No host operation before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 1 either, and it is no array of the pipeline: it ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- No host operation before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 2 either, and it is no array of the pipeline: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host operation before the region writes argument 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 3 either, and it is no array of the pipeline: it ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host operation before the region writes argument 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 4 either, and it is no array of the pipeline: it ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host operation before the region writes argument 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation after the region writes argument 5 either, and it is no array of the pipeline: it ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The products' window: its staging buffer holds the point's block at every point, for any proof data whose array is the
    region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The destination words' window, likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is a half's first tile", as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 128 = 0 :=
  (by decide +kernel : ∀ t : Fin grid0.N, isFirst (grid0.coords t) ↔ t.val % 128 = 0)

/-- "This is a half's last tile", as the body computes it. -/
abbrev isLast (i : grid0.Coords) : Prop := k0_cond2 i = 1#1
theorem isLast_iff : ∀ t : Fin cfg0.N, isLast (grid0.coords t) ↔ t.val % 128 = 127 :=
  (by decide +kernel : ∀ t : Fin grid0.N, isLast (grid0.coords t) ↔ t.val % 128 = 127)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from a half's last tile the body stores nothing into the output block, -/
theorem idle2 : ∀ t : Fin cfg0.N, ¬isLast (grid0.coords t) → cfg0.idle 2 (grid0.coords t) = true := by decide +kernel
/-- and the pipeline does not write it back there; -/
theorem noFlush2 : ∀ t : Fin cfg0.N, ¬isLast (grid0.coords t) → (cfg0.win 2).flush t = false := by decide +kernel
/-- at a half's last tile the body stores it whole. -/
theorem live2 : ∀ t : Fin cfg0.N, isLast (grid0.coords t) → cfg0.idle 2 (grid0.coords t) = false := by decide +kernel

/-! ## The memrefs the body is called with -/

/-- One staging buffer of the output window, through which its contents are stated. -/
abbrev outView : View sig .tc .vmem S1x32x16 .f32 := (Memref.whole cc0_stg2_0 : Memref sig .tc .vmem S1x32x16 .f32).view
abbrev mIn0 (t : Fin cfg0.N) : Memref sig .tc .vmem S1x1x65536 .f32 := win0_0.stage (cfg0.slots t 0)
abbrev hIn0 (t : Fin cfg0.N) : (mIn0 t).IsWhole := hstage0_0 ((cfg0.slots t 0).cast nbuf0_0)
abbrev mIn1 (t : Fin cfg0.N) : Memref sig .tc .vmem S1x1x65536 .i32 := win0_1.stage (cfg0.slots t 1)
abbrev hIn1 (t : Fin cfg0.N) : (mIn1 t).IsWhole := hstage0_1 ((cfg0.slots t 1).cast nbuf0_1)
abbrev mOut (t : Fin cfg0.N) : Memref sig .tc .vmem S1x32x16 .f32 := win0_2.stage (cfg0.slots t 2)
abbrev hOut (t : Fin cfg0.N) : (mOut t).IsWhole := hstage0_2 ((cfg0.slots t 2).cast nbuf0_2)
/-- The accumulator: a scoped buffer of the kernel's own, carried from point to point. -/
abbrev mAcc : Memref sig .tc .vmem S1x32x16 .f32 := Memref.whole cc0_scratch0
abbrev accView : View sig .tc .vmem S1x32x16 .f32 := mAcc.view

/-- What the launch hands the region beside the windows: the accumulator at some contents, and the generator register. -/
theorem invA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.KernelIdeal.Hand

end
-- ==== Proof.KI.RunA.lean ====
import proofs.«405905_j64458869178769_3_alg».proof.Proof.KI.Around

/-! The body at a half's first tile (not its last): the accumulator is reset and the tile's contribution added; the
output block is not touched. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a half's first tile: from the two input blocks at `x`, `d`, the output buffer at any `o` and the accumulator at
    anything, the body ends with the inputs and the output buffer as they were and the accumulator overwritten by the
    listed stores (the list is what the symbolic run finds). -/
noncomputable def runFirst (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) :
    { LS : List (View.Piece (Elt F) S1x32x16 .f32) //
      ∀ (o : Vec F S1x32x16 .f32) (E : Set ℕ) (K : PUnit → sProp 𝕄),
        iprop(owns (c : Thread nD τ) aX fullShare x ∗ owns (c : Thread nD τ) aD fullShare d ∗ owns (c : Thread nD τ) aO fullShare o ∗ (∃ s, owns (c : Thread nD τ) aS fullShare s)
            ∗ (iprop(owns (c : Thread nD τ) aX fullShare x ∗ owns (c : Thread nD τ) aD fullShare d ∗ owns (c : Thread nD τ) aO fullShare o ∗ (∃ f, aS.view.loc (c : Thread nD τ) ↦[aS.view.set]{fullShare} aS.view.writes (Elt F) f LS)) -∗ K ⟨⟩))
          ⊢ wp frame (wpE (defs₀ (F := F)) Variants.none c none) E (cc0__scatter_kernel i aX hX aD hD aO hO aS hS) K } := by
  refine ⟨?_, fun o E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := hX.eq_unread hf0; obtain rfl := hD.eq_unread hf1; obtain rfl := hO.eq_unread hf2
    sl_exec (disch := first | exact h0 | exact h1)
    sl_step
    iapply Hk
    isplitl [H0]
    · iexists _; isplitr; · ipureintro; exact hX.read_unread _
      iexact H0
    isplitl [H1]
    · iexists _; isplitr; · ipureintro; exact hD.read_unread _
      iexact H1
    isplitl [H2]
    · iexists _; isplitr; · ipureintro; exact hO.read_unread _
      iexact H2
    iexists _; iexact HS

end Cert.KernelIdeal.Hand

end
-- ==== Proof.KI.RunB.lean ====
import proofs.«405905_j64458869178769_3_alg».proof.Proof.KI.RunA

/-! The body at a tile that is neither a half's first nor its last: the tile's contribution is added to the accumulator
the tile before left; the output block is not touched. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle tile: from the two input blocks at `x`, `d`, the output buffer at any `o` and the accumulator at `s`, the
    body ends with the inputs and the output buffer as they were and the accumulator overwritten by the listed stores. -/
noncomputable def runMiddle (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) :
    { LS : List (View.Piece (Elt F) S1x32x16 .f32) //
      ∀ (o : Vec F S1x32x16 .f32) (E : Set ℕ) (K : PUnit → sProp 𝕄),
        iprop(owns (c : Thread nD τ) aX fullShare x ∗ owns (c : Thread nD τ) aD fullShare d ∗ owns (c : Thread nD τ) aO fullShare o ∗ owns (c : Thread nD τ) aS fullShare s
            ∗ (iprop(owns (c : Thread nD τ) aX fullShare x ∗ owns (c : Thread nD τ) aD fullShare d ∗ owns (c : Thread nD τ) aO fullShare o ∗ (∃ f, aS.view.loc (c : Thread nD τ) ↦[aS.view.set]{fullShare} aS.view.writes (Elt F) f LS)) -∗ K ⟨⟩))
          ⊢ wp frame (wpE (defs₀ (F := F)) Variants.none c none) E (cc0__scatter_kernel i aX hX aD hD aO hO aS hS) K } := by
  refine ⟨?_, fun o E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := hX.eq_unread hf0; obtain rfl := hD.eq_unread hf1; obtain rfl := hO.eq_unread hf2; obtain rfl := hS.eq_unread hfs
    sl_exec (disch := first | exact h0 | exact h1)
    sl_step
    iapply Hk
    isplitl [H0]
    · iexists _; isplitr; · ipureintro; exact hX.read_unread _
      iexact H0
    isplitl [H1]
    · iexists _; isplitr; · ipureintro; exact hD.read_unread _
      iexact H1
    isplitl [H2]
    · iexists _; isplitr; · ipureintro; exact hO.read_unread _
      iexact H2
    iexists _; iexact HS

end Cert.KernelIdeal.Hand

end
-- ==== Proof.KI.RunC.lean ====
import proofs.«405905_j64458869178769_3_alg».proof.Proof.KI.RunB

/-! The body at a half's last tile (not its first): the tile's contribution is added to the accumulator, and the
accumulator is copied to the output block. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a half's last tile: from the two input blocks at `x`, `d`, the output buffer at anything and the accumulator at
    `s`, the body ends with the inputs as they were, and the output buffer and the accumulator each overwritten by its
    listed stores. -/
noncomputable def runLast (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) :
    Σ' (LO : List (View.Piece (Elt F) S1x32x16 .f32)), { LS : List (View.Piece (Elt F) S1x32x16 .f32) //
      ∀ (E : Set ℕ) (K : PUnit → sProp 𝕄),
        iprop(owns (c : Thread nD τ) aX fullShare x ∗ owns (c : Thread nD τ) aD fullShare d ∗ (∃ o, owns (c : Thread nD τ) aO fullShare o) ∗ owns (c : Thread nD τ) aS fullShare s
            ∗ (iprop(owns (c : Thread nD τ) aX fullShare x ∗ owns (c : Thread nD τ) aD fullShare d ∗ (∃ f, aO.view.loc (c : Thread nD τ) ↦[aO.view.set]{fullShare} aO.view.writes (Elt F) f LO) ∗ (∃ f, aS.view.loc (c : Thread nD τ) ↦[aS.view.set]{fullShare} aS.view.writes (Elt F) f LS)) -∗ K ⟨⟩))
          ⊢ wp frame (wpE (defs₀ (F := F)) Variants.none c none) E (cc0__scatter_kernel i aX hX aD hD aO hO aS hS) K } := by
  refine ⟨?_, ?_, fun E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := hX.eq_unread hf0; obtain rfl := hD.eq_unread hf1; obtain rfl := hS.eq_unread hfs
    sl_exec (disch := first | exact h0 | exact h1)
    sl_step
    iapply Hk
    isplitl [H0]
    · iexists _; isplitr; · ipureintro; exact hX.read_unread _
      iexact H0
    isplitl [H1]
    · iexists _; isplitr; · ipureintro; exact hD.read_unread _
      iexact H1
    isplitl [H2]; · iexists _; iexact H2
    iexists _; iexact HS

end Cert.KernelIdeal.Hand

end
-- ==== Proof.KI.Frame.lean ====
import proofs.«405905_j64458869178769_3_alg».proof.Proof.KI.RunC

/-! The frame of the kernel's program: what the accumulator and the output block hold point by point, the proof data of
the pipeline, the body's obligation at every point, and the run of @main. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

/-- The accumulator after a half's first tile: the run's stores read back. -/
def accFirst (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) : Vec F S1x32x16 .f32 :=
  accView.read (Elt F) (accView.writes (Elt F) accView.junk (runFirst c i aX hX aD hD aO hO aS hS h0 h1 x d).1)

/-- Those stores cover the accumulator. -/
theorem accFirst_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) (y : S1x32x16.Idx) :
    ∃ pc ∈ (runFirst c i aX hX aD hD aO hO aS hS h0 h1 x d).1, y ∈ pc.1.set :=
  View.cover_of_tiledL (runFirst c i aX hX aD hD aO hO aS hS h0 h1 x d).1 S1x32x16.size (by sl_kernel_rfl) y

/-- The accumulator after a middle tile, over what the tile before left. -/
def accMiddle (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) : Vec F S1x32x16 .f32 :=
  accView.read (Elt F) (accView.writes (Elt F) accView.junk (runMiddle c i aX hX aD hD aO hO aS hS h0 h1 x d s).1)

theorem accMiddle_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) (y : S1x32x16.Idx) :
    ∃ pc ∈ (runMiddle c i aX hX aD hD aO hO aS hS h0 h1 x d s).1, y ∈ pc.1.set :=
  View.cover_of_tiledL (runMiddle c i aX hX aD hD aO hO aS hS h0 h1 x d s).1 S1x32x16.size (by sl_kernel_rfl) y

/-- The accumulator after a half's last tile, over what the tile before left. -/
def accLast (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) : Vec F S1x32x16 .f32 :=
  accView.read (Elt F) (accView.writes (Elt F) accView.junk (runLast c i aX hX aD hD aO hO aS hS h0 h1 x d s).2.1)

theorem accLast_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) (y : S1x32x16.Idx) :
    ∃ pc ∈ (runLast c i aX hX aD hD aO hO aS hS h0 h1 x d s).2.1, y ∈ pc.1.set :=
  View.cover_of_tiledL (runLast c i aX hX aD hD aO hO aS hS h0 h1 x d s).2.1 S1x32x16.size (by sl_kernel_rfl) y

/-- The output block after a half's last tile. -/
def outLast (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) : Vec F S1x32x16 .f32 :=
  outView.read (Elt F) (outView.writes (Elt F) outView.junk (runLast c i aX hX aD hD aO hO aS hS h0 h1 x d s).1)

theorem outLast_cover (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) (y : S1x32x16.Idx) :
    ∃ pc ∈ (runLast c i aX hX aD hD aO hO aS hS h0 h1 x d s).1, y ∈ pc.1.set :=
  View.cover_of_tiledL (runLast c i aX hX aD hD aO hO aS hS h0 h1 x d s).1 S1x32x16.size (by sl_kernel_rfl) y

/-! ## The accumulator and the output block, point by point -/

theorem not_last_of_first {n : ℕ} (h : n % 128 = 0) : ¬n % 128 = 127 := by omega

/-- What the accumulator holds after the body at position `n`: reset and one tile added at a half's first tile, one tile
    added over what position `n - 1` left elsewhere. -/
def accAt (c : Dev nD) : (n : ℕ) → n < cfg0.N → Vec F S1x32x16 .f32
  | 0, hn => accFirst c (grid0.coords ⟨0, hn⟩) (mIn0 ⟨0, hn⟩) (hIn0 ⟨0, hn⟩) (mIn1 ⟨0, hn⟩) (hIn1 ⟨0, hn⟩) (mOut ⟨0, hn⟩) (hOut ⟨0, hn⟩) mAcc (Memref.isWhole_whole _) ((isFirst_iff ⟨0, hn⟩).mpr (Nat.zero_mod _)) (fun h => not_last_of_first (Nat.zero_mod 128) ((isLast_iff ⟨0, hn⟩).mp h)) (iblk m c 0 ⟨0, hn⟩) (iblk m c 1 ⟨0, hn⟩)
  | n + 1, hn =>
    if h0 : (n + 1) % 128 = 0 then
      accFirst c (grid0.coords ⟨n + 1, hn⟩) (mIn0 ⟨n + 1, hn⟩) (hIn0 ⟨n + 1, hn⟩) (mIn1 ⟨n + 1, hn⟩) (hIn1 ⟨n + 1, hn⟩) (mOut ⟨n + 1, hn⟩) (hOut ⟨n + 1, hn⟩) mAcc (Memref.isWhole_whole _) ((isFirst_iff ⟨n + 1, hn⟩).mpr h0) (fun h => not_last_of_first h0 ((isLast_iff ⟨n + 1, hn⟩).mp h)) (iblk m c 0 ⟨n + 1, hn⟩) (iblk m c 1 ⟨n + 1, hn⟩)
    else if h1 : (n + 1) % 128 = 127 then
      accLast c (grid0.coords ⟨n + 1, hn⟩) (mIn0 ⟨n + 1, hn⟩) (hIn0 ⟨n + 1, hn⟩) (mIn1 ⟨n + 1, hn⟩) (hIn1 ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (accAt c n (Nat.lt_of_succ_lt hn))
    else
      accMiddle c (grid0.coords ⟨n + 1, hn⟩) (mIn0 ⟨n + 1, hn⟩) (hIn0 ⟨n + 1, hn⟩) (mIn1 ⟨n + 1, hn⟩) (hIn1 ⟨n + 1, hn⟩) (mOut ⟨n + 1, hn⟩) (hOut ⟨n + 1, hn⟩) mAcc (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (accAt c n (Nat.lt_of_succ_lt hn))

theorem accAt_first (c : Dev nD) (t : Fin cfg0.N) (h0 : t.val % 128 = 0) :
    accAt m c t.val t.isLt = accFirst c (grid0.coords t) (mIn0 t) (hIn0 t) (mIn1 t) (hIn1 t) (mOut t) (hOut t) mAcc (Memref.isWhole_whole _) ((isFirst_iff t).mpr h0) (fun h => not_last_of_first h0 ((isLast_iff t).mp h)) (iblk m c 0 t) (iblk m c 1 t) := by
  obtain ⟨n, hn⟩ := t
  cases n with
  | zero => exact rfl
  | succ n => exact (dif_pos h0).trans rfl

theorem accAt_last (c : Dev nD) (t : Fin cfg0.N) (h0 : ¬t.val % 128 = 0) (h1 : t.val % 128 = 127) :
    accAt m c t.val t.isLt = accLast c (grid0.coords t) (mIn0 t) (hIn0 t) (mIn1 t) (hIn1 t) (mOut t) (hOut t) mAcc (Memref.isWhole_whole _) (fun h => h0 ((isFirst_iff t).mp h)) ((isLast_iff t).mpr h1) (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem accAt_middle (c : Dev nD) (t : Fin cfg0.N) (h0 : ¬t.val % 128 = 0) (h1 : ¬t.val % 128 = 127) :
    accAt m c t.val t.isLt = accMiddle c (grid0.coords t) (mIn0 t) (hIn0 t) (mIn1 t) (hIn1 t) (mOut t) (hOut t) mAcc (Memref.isWhole_whole _) (fun h => h0 ((isFirst_iff t).mp h)) (fun h => h1 ((isLast_iff t).mp h)) (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- What the output block holds after the body at point `t`: at a half's last tile the copy of the accumulator; elsewhere
    the body stores nothing there and the value is not consulted. -/
def outAt (c : Dev nD) (t : Fin cfg0.N) : Vec F S1x32x16 .f32 :=
  if h1 : t.val % 128 = 127 then
    outLast c (grid0.coords t) (mIn0 t) (hIn0 t) (mIn1 t) (hIn1 t) (mOut t) (hOut t) mAcc (Memref.isWhole_whole _) (fun h => not_last_of_first ((isFirst_iff t).mp h) h1) ((isLast_iff t).mpr h1) (iblk m c 0 t) (iblk m c 1 t) (accAt m c (t.val - 1) (Nat.lt_of_le_of_lt (Nat.sub_le _ _) t.isLt))
  else outView.read (Elt F) outView.junk

theorem outAt_last (c : Dev nD) (t : Fin cfg0.N) (h1 : t.val % 128 = 127) :
    outAt m c t = outLast c (grid0.coords t) (mIn0 t) (hIn0 t) (mIn1 t) (hIn1 t) (mOut t) (hOut t) mAcc (Memref.isWhole_whole _) (fun h => not_last_of_first ((isFirst_iff t).mp h) h1) ((isLast_iff t).mpr h1) (iblk m c 0 t) (iblk m c 1 t) (accAt m c (t.val - 1) (Nat.lt_of_le_of_lt (Nat.sub_le _ _) t.isLt)) :=
  dif_pos h1

/-! ## The region's invariant -/

/-- Before position `n`: at the start what the launch hands over (the accumulator at anything); afterwards the accumulator
    at what position `n - 1` left, and the generator register at some state. -/
def invAt (c : Dev nD) : (n : ℕ) → n ≤ cfg0.N → sProp 𝕄
  | 0, _ => Pipeline.ΦA spec0 c
  | n + 1, hn => iprop(iprop(owns (c : Thread nD τ) mAcc fullShare (accAt m c n hn)) ∗ (∃ r, prngReg c r))

theorem invAt_zero (c : Dev nD) (n : ℕ) (h : n ≤ cfg0.N) (hz : n = 0) : invAt m c n h = Pipeline.ΦA spec0 c := by
  subst hz; rfl

theorem invAt_succ (c : Dev nD) (n : ℕ) (hn : n < cfg0.N) :
    invAt m c (n + 1) hn = iprop(iprop(owns (c : Thread nD τ) mAcc fullShare (accAt m c n hn)) ∗ (∃ r, prngReg c r)) := rfl

theorem invAt_pos (c : Dev nD) (n : ℕ) (h : n ≤ cfg0.N) (hz : n ≠ 0) :
    invAt m c n h = iprop(iprop(owns (c : Thread nD τ) mAcc fullShare (accAt m c (n - 1) (by omega))) ∗ (∃ r, prngReg c r)) := by
  cases n with
  | zero => exact absurd rfl hz
  | succ n => rfl

/-! ## The pipeline's proof data -/

/-- On core `c`: the arrays as the region finds them; after the body at point `t` each input's buffer at its block and the
    output's at `outAt`; the invariant `invAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := invAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = invAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mIn0 t) fullShare ((dats m 0 c).before 0 t d))
    ∗ (∃ d, owns (c : Thread nD τ) (mIn1 t) fullShare ((dats m 0 c).before 1 t d))
    ∗ (∃ d, owns (c : Thread nD τ) (mOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the point is a half's first tile, its last, or neither,
    and that case's run applies; the invariant hands over the accumulator at what the point before left (at anything at
    the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = invAt m c (t.val + 1) t.isLt from rfl, invAt_succ]
  rw [show (dats m 0 c).leavesExact 0 t = owns (c : Thread nD τ) (mIn0 t) fullShare ((dats m 0 c).after 0 t) from by
    unfold Dat.leavesExact; rw [live0 t], after_0]
  rw [show (dats m 0 c).leavesExact 1 t = owns (c : Thread nD τ) (mIn1 t) fullShare ((dats m 0 c).after 1 t) from by
    unfold Dat.leavesExact; rw [live1 t], after_1]
  have hN : t.val < 256 := lt_of_lt_of_eq t.isLt (show cfg0.N = 256 from N_0)
  by_cases h0 : t.val % 128 = 0
  · have h1 : ¬t.val % 128 = 127 := not_last_of_first h0
    rw [Dat.leavesExact_idle (dats m 0 c) 2 t (idle2 t (fun h => h1 ((isLast_iff t).mp h))) (noFlush2 t (fun h => h1 ((isLast_iff t).mp h)))]
    rw [accAt_first m c t h0]
    unfold accFirst; (try dsimp only)
    by_cases hz : t.val = 0
    · rw [inv_castSucc m c t, invAt_zero m c _ _ hz, invA_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accFirst_cover c _ _ _ _ _ _ _ _ _ _ _ _ _)
        iexact Hg
      isplitl [Ho]; · iexact Ho
      isplitl [H0]; · iexact H0
      isplitl [H1]; · iexact H1
      iexists _; iexact H2
    · rw [inv_castSucc m c t, invAt_pos m c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (accFirst_cover c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 128 = 127
    · rw [show (dats m 0 c).leavesExact 2 t = owns (c : Thread nD τ) (mOut t) fullShare ((dats m 0 c).after 2 t) from by
        unfold Dat.leavesExact; rw [live2 t ((isLast_iff t).mpr h1)], after_2]
      rw [accAt_last m c t h0 h1, outAt_last m c t h1]
      unfold accLast outLast; (try dsimp only)
      rw [inv_castSucc m c t, invAt_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (accLast_cover c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dats m 0 c) 2 t (idle2 t (fun h => h1 ((isLast_iff t).mp h))) (noFlush2 t (fun h => h1 ((isLast_iff t).mp h)))]
      rw [accAt_middle m c t h0 h1]
      unfold accMiddle; (try dsimp only)
      rw [inv_castSucc m c t, invAt_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((isFirst_iff t).mp h)) (fun h => h1 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accMiddle_cover c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives it back: what the accumulator holds is forgotten. -/
theorem inv_out (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = invAt m c (Fin.last cfg0.N).val (Nat.le_of_lt_succ (Fin.last cfg0.N).isLt) from rfl,
    invAt_pos m c _ _ hne, invA_eq]
  iintro ⟨HS, Hg⟩
  isplitl [HS]
  · iexists _; iexact HS
  iexact Hg

/-! ## The run and the frame -/

set_option backward.isDefEq.respectTransparency.types false in
/-- From any memory with zero counters every weakly fair execution of @main terminates, each array of the pipeline ending
    at what the proof data's write-backs leave and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := inv_in m) (hout := inv_out m)

/-- The six argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c)⟩) (run_main m ρ)

end Cert.KernelIdeal.Hand

end
-- ==== Proof.Spec.lean ====
import Idealize.ShloMosaic.PureOps.Ideal
import Idealize.ShloMosaic.Lib.ValueIdx
import Mathlib.Algebra.BigOperators.Fin
import Mathlib.Data.EReal.Basic

/-! The mathematics of the weighted segment sum, free of any program.

Edge `e` carries a value `x e` and a 32-bit destination word `d e`; bin `b` receives the values of the edges whose
word, read as a signed integer, is `b`. The edges are cut into 2 × 128 tiles of 65536; the sum over all edges is the
sum over the tiles of each tile's own segment sum. -/

noncomputable section

namespace Cert.Seg

open Idealize.ShloMosaic

/-- What an edge with destination word `w` and value `x` gives bin `b`. -/
def pick (w : BitVec 32) (b : ℕ) (x : EReal) : EReal := if w.toInt = (b : ℤ) then x else 0

/-- The segment sum of `n` edges at bin `b`. -/
def segSum {n : ℕ} (x : Fin n → EReal) (d : Fin n → BitVec 32) (b : ℕ) : EReal := ∑ e : Fin n, pick (d e) b (x e)

/-- Edge `e` of tile `j` of half `c`, as a position among all the edges. -/
def edgeAt (c : Fin 2) (j : Fin 128) (e : Fin 65536) : Fin 16777216 :=
  ⟨c.val * 8388608 + j.val * 65536 + e.val, by have := c.isLt; have := j.isLt; have := e.isLt; omega⟩

/-- Tile `j` of half `c`'s segment sum (zero past the last tile). -/
def tileSum (x : Fin 16777216 → EReal) (d : Fin 16777216 → BitVec 32) (c : Fin 2) (j : ℕ) (b : ℕ) : EReal :=
  if h : j < 128 then segSum (fun e => x (edgeAt c ⟨j, h⟩ e)) (fun e => d (edgeAt c ⟨j, h⟩ e)) b else 0

/-- Half `c`'s running total after its first `n` tiles. -/
def halfSum (x : Fin 16777216 → EReal) (d : Fin 16777216 → BitVec 32) (c : Fin 2) (n : ℕ) (b : ℕ) : EReal :=
  ∑ j ∈ Finset.range n, tileSum x d c j b

theorem halfSum_zero (x : Fin 16777216 → EReal) (d : Fin 16777216 → BitVec 32) (c : Fin 2) (b : ℕ) :
    halfSum x d c 0 b = 0 := by
  unfold halfSum
  exact Finset.sum_range_zero _

theorem halfSum_succ (x : Fin 16777216 → EReal) (d : Fin 16777216 → BitVec 32) (c : Fin 2) (n : ℕ) (b : ℕ) :
    halfSum x d c (n + 1) b = halfSum x d c n b + tileSum x d c n b := by
  unfold halfSum
  exact Finset.sum_range_succ _ n

/-- Every edge position is edge `e` of tile `j` of half `c` for exactly one triple `(c, j, e)`: the half is the
quotient by 8388608, the tile the quotient of the remainder by 65536, the edge the remainder by 65536. -/
def edgeEquiv : Fin 2 × Fin 128 × Fin 65536 ≃ Fin 16777216 where
  toFun p := edgeAt p.1 p.2.1 p.2.2
  invFun i :=
    (⟨i.val / 8388608, by have := i.isLt; omega⟩,
     ⟨i.val % 8388608 / 65536, by omega⟩,
     ⟨i.val % 65536, by omega⟩)
  left_inv := by
    rintro ⟨c, j, e⟩
    have hc := c.isLt
    have hj := j.isLt
    have he := e.isLt
    refine Prod.ext (Fin.ext ?_) (Prod.ext (Fin.ext ?_) (Fin.ext ?_))
    · show (c.val * 8388608 + j.val * 65536 + e.val) / 8388608 = c.val
      omega
    · show (c.val * 8388608 + j.val * 65536 + e.val) % 8388608 / 65536 = j.val
      omega
    · show (c.val * 8388608 + j.val * 65536 + e.val) % 65536 = e.val
      omega
  right_inv := by
    intro i
    have hi := i.isLt
    refine Fin.ext ?_
    show i.val / 8388608 * 8388608 + i.val % 8388608 / 65536 * 65536 + i.val % 65536 = i.val
    omega

/-- A half's total over its 128 tiles is the double sum of its edges' contributions. -/
theorem halfSum_full (x : Fin 16777216 → EReal) (d : Fin 16777216 → BitVec 32) (c : Fin 2) (b : ℕ) :
    halfSum x d c 128 b
      = ∑ j : Fin 128, ∑ e : Fin 65536, pick (d (edgeAt c j e)) b (x (edgeAt c j e)) := by
  unfold halfSum
  rw [Finset.sum_range (fun j => tileSum x d c j b)]
  refine Finset.sum_congr rfl ?_
  intro j _
  unfold tileSum
  rw [dif_pos j.isLt]
  rfl

/-- The two halves' totals over all their 128 tiles add up to the segment sum over all the edges. -/
theorem halves_add (x : Fin 16777216 → EReal) (d : Fin 16777216 → BitVec 32) (b : ℕ) :
    halfSum x d 0 128 b + halfSum x d 1 128 b = segSum x d b := by
  rw [halfSum_full, halfSum_full]
  unfold segSum
  rw [← Fintype.sum_equiv edgeEquiv
    (fun p : Fin 2 × Fin 128 × Fin 65536 => pick (d (edgeAt p.1 p.2.1 p.2.2)) b (x (edgeAt p.1 p.2.1 p.2.2)))
    (fun i => pick (d i) b (x i)) (fun _ => rfl)]
  rw [Fintype.sum_prod_type, Fin.sum_univ_two]
  simp only [Fintype.sum_prod_type]

/-- A word is `16 h + l` exactly when its arithmetic shift by four is `h` and its low four bits are `l`. -/
theorem word_split (w : BitVec 32) (h : Fin 32) (l : Fin 16) :
    (w.sshiftRight 4 = BitVec.ofNat 32 h.val ∧ w &&& 15#32 = BitVec.ofNat 32 l.val)
      ↔ w.toInt = ((16 * h.val + l.val : ℕ) : ℤ) := by
  have hh := h.isLt
  have hl := l.isLt
  have hN := w.isLt
  -- the signed reading is the unsigned one below 2^31, and the unsigned one less 2^32 from there on
  have hT := BitVec.toInt_eq_toNat_cond w
  -- a number below 32 is its own balanced remainder modulo 2^32
  have hbm : ((h.val : ℕ) : ℤ).bmod (2 ^ 32) = (h.val : ℤ) :=
    Int.bmod_eq_of_le_mul_two (by omega) (by omega)
  -- the low four bits are the remainder by 16
  have hand : w.toNat &&& 15 % 2 ^ 32 = w.toNat % 16 :=
    Nat.and_two_pow_sub_one_eq_mod w.toNat 4
  -- compare the shifted word as a signed integer (the floor of the quotient by 16), the masked word as a natural number
  rw [← BitVec.toInt_inj, ← BitVec.toNat_inj (x := w &&& 15#32)]
  rw [BitVec.toInt_sshiftRight, BitVec.toNat_and, BitVec.toInt_ofNat', BitVec.toNat_ofNat, BitVec.toNat_ofNat,
    Int.shiftRight_eq_div_pow, hbm, hand]
  -- a quotient in [0, 32) forces the signed reading into [0, 512), where it is the unsigned one; conversely
  -- 16 h + l is nonnegative, so again the two readings agree, and quotient and remainder by 16 are h and l
  split_ifs at hT with hlt
  · constructor
    · rintro ⟨h1, h2⟩
      omega
    · intro h3
      constructor <;> omega
  · constructor
    · rintro ⟨h1, h2⟩
      omega
    · intro h3
      omega

end Cert.Seg

end
-- ==== Proof.KIV.Entry.lean ====
import proofs.«405905_j64458869178769_3_alg».proof.Proof.KI.Around
import proofs.«405905_j64458869178769_3_alg».proof.Proof.Gen.ReferenceIdeal.Read
import proofs.«405905_j64458869178769_3_alg».proof.Proof.Spec
import Idealize.ShloMosaic.Lib.Pipeline.Value
import Idealize.ShloMosaic.Lib.StableHlo.Run
import Idealize.ShloMosaic.Lib.ValueIdx

/-! What the region finds in its two input arrays, and a window's block read at an edge.

The host operations before the region compute the per-edge products exactly as the reference does, and re-lay the
products and the destination words as [2, 1, 8388608]: entry `(c, 0, k)` is edge `8388608 c + k`. The block of point
`t` is tile `t % 128` of half `t / 128`: its entry `(0, 0, e)` is edge `8388608 (t / 128) + 65536 (t % 128) + e`. -/

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Seg

variable {F : FTy → Type} [FloatOps F]
variable (m : (ℓ : Loc nD τ sig) → Buf (Elt F) ℓ)

/-- The per-edge products as the region finds them are the reference's products of the same arguments. -/
theorem entry_products (c : Dev nD) :
    (V m c main_v10 : S16777216.Idx → Elt F .f32)
      = Cert.ReferenceIdeal.Read.val_main_v10 (F := F) (m ((c : Thread nD τ).loc main_arg0)) (m ((c : Thread nD τ).loc main_arg1))
          (m ((c : Thread nD τ).loc main_arg2)) (m ((c : Thread nD τ).loc main_arg3)) (m ((c : Thread nD τ).loc main_arg5)) := by
  show StableHlo.after hostOps0 (fun b => m (c, b)) (Proc.devRef .tc main_v10) = _
  after_results
  rfl

/-- The products' array is the products re-laid. -/
theorem entry_v11 (c : Dev nD) :
    (V m c main_v11 : S2x1x8388608.Idx → Elt F .f32)
      = shapeCast S2x1x8388608 (V m c main_v10 : S16777216.Idx → Elt F .f32) shapeCasts_S16777216_S2x1x8388608 := by
  rw [entry_products]
  show StableHlo.after hostOps0 (fun b => m (c, b)) (Proc.devRef .tc main_v11) = _
  after_results
  rfl

/-- The destination words' array is the destination argument re-laid. -/
theorem entry_v12 (c : Dev nD) :
    (V m c main_v12 : S2x1x8388608.Idx → Elt F .i32)
      = shapeCast S2x1x8388608 (m ((c : Thread nD τ).loc main_arg4) : S16777216.Idx → Elt F .i32) shapeCasts_S16777216_S2x1x8388608 := by
  show StableHlo.after hostOps0 (fun b => m (c, b)) (Proc.devRef .tc main_v12) = _
  after_results
  rfl

/-- Entry `(c, 0, k)` of a re-laid array is entry `8388608 c + k` of the flat one. -/
theorem relaid_at {α : Type} (X : S16777216.Idx → α) (a : Fin 2) (k : Fin 8388608) :
    shapeCast S2x1x8388608 X shapeCasts_S16777216_S2x1x8388608 (ix3 a 0 k)
      = X (ix1 ⟨a.val * 8388608 + k.val, by have := a.isLt; have := k.isLt; omega⟩) := by
  refine shapeCast_apply X shapeCasts_S16777216_S2x1x8388608 (ix3 a 0 k) (ix1 ⟨a.val * 8388608 + k.val, by have := a.isLt; have := k.isLt; omega⟩) ?_
  rw [Shape.rowMajor_val_one, Shape.rowMajor_val_three]
  show a.val * 8388608 + k.val = (a.val * 1 + 0) * 8388608 + k.val
  omega

/-- Where point `t`'s blocks sit: the half and the tile, read off the printed index maps once over the grid. -/
theorem index_facts : ∀ t : Fin cfg0.N,
    (win0_0.index t 0 = t.val / 128 ∧ win0_0.index t 1 = 0 ∧ win0_0.index t 2 = t.val % 128)
    ∧ (win0_1.index t 0 = t.val / 128 ∧ win0_1.index t 1 = 0 ∧ win0_1.index t 2 = t.val % 128)
    ∧ (win0_2.index t 0 = t.val / 128 ∧ win0_2.index t 1 = 0 ∧ win0_2.index t 2 = 0) :=
  (by decide +kernel : ∀ t : Fin grid0.N,
    (win0_0.index t 0 = t.val / 128 ∧ win0_0.index t 1 = 0 ∧ win0_0.index t 2 = t.val % 128)
    ∧ (win0_1.index t 0 = t.val / 128 ∧ win0_1.index t 1 = 0 ∧ win0_1.index t 2 = t.val % 128)
    ∧ (win0_2.index t 0 = t.val / 128 ∧ win0_2.index t 1 = 0 ∧ win0_2.index t 2 = 0))

theorem half_lt (t : Fin cfg0.N) : t.val / 128 < 2 := by
  have : t.val < 256 := lt_of_lt_of_eq t.isLt (show cfg0.N = 256 from N_0); omega
theorem tile_lt (t : Fin cfg0.N) : t.val % 128 < 128 := Nat.mod_lt _ (by decide)

/-- Entry `e` of the products' block at point `t` is the product at that tile's edge `e`. -/
theorem iblk0_at (c : Dev nD) (t : Fin cfg0.N) (e : Fin 65536) :
    (iblk m c 0 t : S1x1x65536.Idx → Elt F .f32) (ix3 0 0 e)
      = (V m c main_v10 : S16777216.Idx → Elt F .f32) (ix1 (edgeAt ⟨t.val / 128, half_lt t⟩ ⟨t.val % 128, tile_lt t⟩ e)) := by
  have hi := (index_facts t).1
  have hpos : (((cfg0.win 0).blk t).view.emb (ix3 0 0 e) : S2x1x8388608.Idx)
      = ix3 ⟨t.val / 128, half_lt t⟩ 0 ⟨t.val % 128 * 65536 + e.val, by have := tile_lt t; have := e.isLt; omega⟩ := by
    funext a
    apply Fin.ext
    match a with
    | ⟨0, _⟩ => show win0_0.index t 0 * 1 + 1 * 0 = t.val / 128; rw [hi.1]; omega
    | ⟨1, _⟩ => show win0_0.index t 1 * 1 + 1 * 0 = 0; rw [hi.2.1]
    | ⟨2, _⟩ => show win0_0.index t 2 * 65536 + 1 * e.val = t.val % 128 * 65536 + e.val; rw [hi.2.2]; omega
  unfold iblk
  rw [View.read_apply]
  show V m c main_v11 (((cfg0.win 0).blk t).view.emb (ix3 0 0 e)) = _
  rw [hpos, entry_v11, relaid_at]
  refine congrArg (V m c main_v10 : S16777216.Idx → Elt F .f32) (congrArg ix1 (Fin.ext ?_))
  show t.val / 128 * 8388608 + (t.val % 128 * 65536 + e.val) = t.val / 128 * 8388608 + t.val % 128 * 65536 + e.val
  omega

/-- Entry `e` of the destination words' block at point `t` is the destination word of that tile's edge `e`. -/
theorem iblk1_at (c : Dev nD) (t : Fin cfg0.N) (e : Fin 65536) :
    (iblk m c 1 t : S1x1x65536.Idx → Elt F .i32) (ix3 0 0 e)
      = (m ((c : Thread nD τ).loc main_arg4) : S16777216.Idx → Elt F .i32) (ix1 (edgeAt ⟨t.val / 128, half_lt t⟩ ⟨t.val % 128, tile_lt t⟩ e)) := by
  have hi := (index_facts t).2.1
  have hpos : (((cfg0.win 1).blk t).view.emb (ix3 0 0 e) : S2x1x8388608.Idx)
      = ix3 ⟨t.val / 128, half_lt t⟩ 0 ⟨t.val % 128 * 65536 + e.val, by have := tile_lt t; have := e.isLt; omega⟩ := by
    funext a
    apply Fin.ext
    match a with
    | ⟨0, _⟩ => show win0_1.index t 0 * 1 + 1 * 0 = t.val / 128; rw [hi.1]; omega
    | ⟨1, _⟩ => show win0_1.index t 1 * 1 + 1 * 0 = 0; rw [hi.2.1]
    | ⟨2, _⟩ => show win0_1.index t 2 * 65536 + 1 * e.val = t.val % 128 * 65536 + e.val; rw [hi.2.2]; omega
  unfold iblk
  rw [View.read_apply]
  show V m c main_v12 (((cfg0.win 1).blk t).view.emb (ix3 0 0 e)) = _
  rw [hpos, entry_v12, relaid_at]
  refine congrArg (m ((c : Thread nD τ).loc main_arg4) : S16777216.Idx → Elt F .i32) (congrArg ix1 (Fin.ext ?_))
  show t.val / 128 * 8388608 + (t.val % 128 * 65536 + e.val) = t.val / 128 * 8388608 + t.val % 128 * 65536 + e.val
  omega

end Cert.KernelIdeal.Hand

end
-- ==== Proof.KIV.Pieces.lean ====
import proofs.«405905_j64458869178769_3_alg».proof.Proof.KI.Frame
import Idealize.ShloMosaic.Lib.Pipeline.Value

/-! What each case of the body leaves, as a term of the point's two input blocks and of what the accumulator held.

One point turns the accumulator `s` into `update x d s`: the products' block `x` and the destination words' block `d`
enter through the body's one arithmetic term, and the result is stored whole. A half's first tile updates the reset
value; a half's last tile also copies the updated accumulator to the output block. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero3 : (![0, 0, 0] : Fin 3 → Nat) = fun _ => 0 := funext fun a => by fin_cases a <;> rfl

/-- One point's update of the accumulator. -/
def update (x : Vec F S1x1x65536 .f32) (d : Vec F S1x1x65536 .i32) (s : Vec F S1x32x16 .f32) : Vec F S1x32x16 .f32 :=
  k0_pay1 (k0_pay3 x d s)

theorem accMiddle_eq (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : ¬isLast i)
    (x : Vec F S1x1x65536 .f32) (d : Vec F S1x1x65536 .i32) (s : Vec F S1x32x16 .f32) :
    accMiddle c i aX hX aD hD aO hO aS hS h0 h1 x d s = update x d s := by
  unfold accMiddle
  rw [View.read_writes_eq_canon _ _ _ (accMiddle_cover c i aX hX aD hD aO hO aS hS h0 h1 x d s)]
  unfold runMiddle
  dsimp only
  try sl_unfold_words
  rw [View.canon_unit_zero (S := S1x32x16) zero3]
  unfold update
  simp only [View.readAt_eq_ld, hX.read_unread, hD.read_unread, hS.read_unread, View.ld_unit_zero (S := S1x1x65536) zero3, View.ld_unit_zero (S := S1x32x16) zero3]

theorem accFirst_eq (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : isFirst i) (h1 : ¬isLast i)
    (x : Vec F S1x1x65536 .f32) (d : Vec F S1x1x65536 .i32) :
    accFirst c i aX hX aD hD aO hO aS hS h0 h1 x d = update x d (k0_pay2 (F := F)) := by
  unfold accFirst
  rw [View.read_writes_eq_canon _ _ _ (accFirst_cover c i aX hX aD hD aO hO aS hS h0 h1 x d)]
  unfold runFirst
  dsimp only
  try sl_unfold_words
  rw [View.canon_cons_unit_zero (S := S1x32x16) zero3, View.readCov_unit_zero (S := S1x32x16) _ zero3]
  unfold update
  simp only [View.readAt_eq_ld, hX.read_unread, hD.read_unread, hS.read_unread, View.ld_unit_zero (S := S1x1x65536) zero3, View.ld_unit_zero (S := S1x32x16) zero3]

theorem accLast_eq (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) :
    accLast c i aX hX aD hD aO hO aS hS h0 h1 x d s = update x d s := by
  unfold accLast
  rw [View.read_writes_eq_canon _ _ _ (accLast_cover c i aX hX aD hD aO hO aS hS h0 h1 x d s)]
  unfold runLast
  dsimp only
  try sl_unfold_words
  rw [View.canon_unit_zero (S := S1x32x16) zero3]
  unfold update
  simp only [View.readAt_eq_ld, hX.read_unread, hD.read_unread, hS.read_unread, View.ld_unit_zero (S := S1x1x65536) zero3, View.ld_unit_zero (S := S1x32x16) zero3]

theorem outLast_eq (c : Dev nD) (i : grid0.Coords) (aX : Memref sig .tc .vmem S1x1x65536 .f32) (hX : aX.IsWhole) (aD : Memref sig .tc .vmem S1x1x65536 .i32) (hD : aD.IsWhole) (aO : Memref sig .tc .vmem S1x32x16 .f32) (hO : aO.IsWhole) (aS : Memref sig .tc .vmem S1x32x16 .f32) (hS : aS.IsWhole) (h0 : ¬isFirst i) (h1 : isLast i)
    (x : Vec F S1x1x65536 .f32) (d : Vec F S1x1x65536 .i32) (s : Vec F S1x32x16 .f32) :
    outLast c i aX hX aD hD aO hO aS hS h0 h1 x d s = update x d s := by
  unfold outLast
  rw [View.read_writes_eq_canon _ _ _ (outLast_cover c i aX hX aD hD aO hO aS hS h0 h1 x d s)]
  unfold runLast
  dsimp only
  try sl_unfold_words
  rw [View.canon_unit_zero (S := S1x32x16) zero3, View.readCov_unit_zero (S := S1x32x16) _ zero3]
  unfold update
  simp only [View.readAt_eq_ld, hX.read_unread, hD.read_unread, hS.read_unread, View.ld_unit_zero (S := S1x1x65536) zero3, View.ld_unit_zero (S := S1x32x16) zero3]

end Cert.KernelIdeal.Hand

end
-- ==== Proof.StepAt.lean ====
import proofs.«405905_j64458869178769_3_alg».proof.Proof.Gen.KernelIdeal.Skeleton
import proofs.«405905_j64458869178769_3_alg».proof.Proof.Spec
import Idealize.ShloMosaic.Lib.ValueIdx
import Idealize.ShloMosaic.Lib.ValueLayout
import Idealize.ShloMosaic.Lib.Pipeline.Value
import Idealize.ShloMosaic.PureOps.Ideal.Laws

/-! One grid point of the kernel, read at an index, over the extended reals.

The body multiplies two one-hot matrices (the word's high part against a row number, its low part against a column
number) with the tile's values between them; entry `(h, l)` of the product is the tile's segment sum at bin
`16 h + l`. The second product carries `x - x`, which is zero for a finite `x`. -/

noncomputable section

namespace Cert.KernelIdeal.StepAt

open Idealize.ShloMosaic Idealize.ShloMosaic.ValueIdx Cert.KernelIdeal Cert.KernelIdeal.Gen Cert.Seg

/-- A one-bit comparison of two words, widened and read as a number, is 1 where the words agree and 0 elsewhere. -/
theorem onehot_word (a b : BitVec 32) :
    (FloatOps.sitofp (F := Ideal) .f32 ((IntOp.cmpi .eq a b).setWidth 32) : EReal) = if a = b then 1 else 0 := by
  by_cases hab : a = b
  · subst hab
    have h1 : IntOp.cmpi .eq a a = 1#1 := by simp [IntOp.cmpi]
    rw [h1, if_pos rfl]
    show (((BitVec.setWidth 32 1#1).toInt : ℝ) : EReal) = 1
    have h2 : (BitVec.setWidth 32 1#1).toInt = 1 := by decide
    rw [h2]
    norm_num
  · have hb : (a == b) = false := by simpa using hab
    have h1 : IntOp.cmpi .eq a b = 0#1 := by simp [IntOp.cmpi, hb]
    rw [h1, if_neg hab]
    show (((BitVec.setWidth 32 0#1).toInt : ℝ) : EReal) = 0
    have h2 : (BitVec.setWidth 32 0#1).toInt = 0 := by decide
    rw [h2]
    norm_num

/-! The product's dimension numbers, axis by axis: each operand's first axis reads the result's row (the left) or column
(the right), its second axis the contracted coordinate. -/

theorem lhs_dot_0 (i : S32x16.Idx) (q : dot_S32x65536_S16x65536_S32x16_1_1_0_0_n_n.contr.Idx) :
    (dot_S32x65536_S16x65536_S32x16_1_1_0_0_n_n.lhsIdx i q 0).val = (i 0).val := by
  unfold DotDims.lhsIdx
  rw [dif_neg (show ¬(0 : Fin S32x65536.rank) ∈ dot_S32x65536_S16x65536_S32x16_1_1_0_0_n_n.lhsBatch by decide),
    dif_pos (show (0 : Fin S32x65536.rank) ∈ dot_S32x65536_S16x65536_S32x16_1_1_0_0_n_n.lhsNonContracting by decide)]
  rfl

theorem lhs_dot_1 (i : S32x16.Idx) (q : dot_S32x65536_S16x65536_S32x16_1_1_0_0_n_n.contr.Idx) :
    (dot_S32x65536_S16x65536_S32x16_1_1_0_0_n_n.lhsIdx i q 1).val = (q ⟨0, by decide⟩).val :=
  dot_S32x65536_S16x65536_S32x16_1_1_0_0_n_n.lhsIdx_val_of_single rfl i q

theorem rhs_dot_0 (i : S32x16.Idx) (q : dot_S32x65536_S16x65536_S32x16_1_1_0_0_n_n.contr.Idx) :
    (dot_S32x65536_S16x65536_S32x16_1_1_0_0_n_n.rhsIdx i q 0).val = (i 1).val := by
  unfold DotDims.rhsIdx
  rw [dif_neg (show ¬(0 : Fin S16x65536.rank) ∈ dot_S32x65536_S16x65536_S32x16_1_1_0_0_n_n.rhsBatch by decide),
    dif_pos (show (0 : Fin S16x65536.rank) ∈ dot_S32x65536_S16x65536_S32x16_1_1_0_0_n_n.rhsNonContracting by decide)]
  rfl

theorem rhs_dot_1 (i : S32x16.Idx) (q : dot_S32x65536_S16x65536_S32x16_1_1_0_0_n_n.contr.Idx) :
    (dot_S32x65536_S16x65536_S32x16_1_1_0_0_n_n.rhsIdx i q 1).val = (q ⟨0, by decide⟩).val :=
  dot_S32x65536_S16x65536_S32x16_1_1_0_0_n_n.rhsIdx_val_of_single rfl i q

/-- The block product read at entry `(h, l)`: both operands are contracted along their second axis. -/
theorem dot_at (A : FVec Ideal S32x65536 .bf16) (B : FVec Ideal S16x65536 .bf16) (h : Fin 32) (l : Fin 16) :
    matmul dot_S32x65536_S16x65536_S32x16_1_1_0_0_n_n none A B (constant S32x16 .f32 0x00000000#32) (ix2 h l)
      = ∑ e : Fin 65536, A (ix2 h e) * B (ix2 l e) := by
  simp only [matmul]
  rw [Ideal.matmul_constant_zero_apply,
    ← Equiv.sum_comp (contrEquiv1 dot_S32x65536_S16x65536_S32x16_1_1_0_0_n_n 65536 rfl rfl).symm]
  refine Finset.sum_congr rfl fun k _ => ?_
  have hk := contrEquiv1_symm_val dot_S32x65536_S16x65536_S32x16_1_1_0_0_n_n 65536 rfl rfl k
  have el : dot_S32x65536_S16x65536_S32x16_1_1_0_0_n_n.lhsIdx (ix2 h l) ((contrEquiv1 dot_S32x65536_S16x65536_S32x16_1_1_0_0_n_n 65536 rfl rfl).symm k) = ix2 h k :=
    funext fun a => Fin.ext (by
      match a with
      | ⟨0, _⟩ => exact lhs_dot_0 _ _
      | ⟨1, _⟩ => exact (lhs_dot_1 _ _).trans hk)
  have er : dot_S32x65536_S16x65536_S32x16_1_1_0_0_n_n.rhsIdx (ix2 h l) ((contrEquiv1 dot_S32x65536_S16x65536_S32x16_1_1_0_0_n_n 65536 rfl rfl).symm k) = ix2 l k :=
    funext fun a => Fin.ext (by
      match a with
      | ⟨0, _⟩ => exact rhs_dot_0 _ _
      | ⟨1, _⟩ => exact (rhs_dot_1 _ _).trans hk)
  rw [el, er]

/-- The high one-hot matrix: entry `(h, e)` compares the word's arithmetic shift by four with the row number. -/
def hiMat (d6 : IVec S1x65536 32) : FVec Ideal S32x65536 .bf16 :=
  truncf .bf16 (sitofp .f32 (extui 32 (cmpi .eq
    (broadcastTo S32x65536 (shrsi d6 (broadcast S1x65536 4#32)) broadcasts_S1x65536_S32x65536)
    (broadcastTo S32x65536 (iota .tc S32x1 32 [0] iota_S32x1_d0_w32) broadcasts_S32x1_S32x65536)) natLt_1_32)) bitsLt_bf16_f32

/-- The low one-hot matrix: entry `(l, e)` compares the word's low four bits with the row number. -/
def loMat (d6 : IVec S1x65536 32) : FVec Ideal S16x65536 .bf16 :=
  truncf .bf16 (sitofp .f32 (extui 32 (cmpi .eq
    (broadcastTo S16x65536 (andi d6 (broadcast S1x65536 15#32)) broadcasts_S1x65536_S16x65536)
    (broadcastTo S16x65536 (iota .tc S16x1 32 [0] iota_S16x1_d0_w32) broadcasts_S16x1_S16x65536)) natLt_1_32)) bitsLt_bf16_f32

/-- The update, with its two one-hot matrices named. -/
theorem pay3_eq (x : Vec Ideal S1x1x65536 .f32) (d : Vec Ideal S1x1x65536 .i32) (s : Vec Ideal S1x32x16 .f32) :
    k0_pay3 (F := Ideal) x d s
      = addf (addf (shapeCast S32x16 s shapeCasts_S1x32x16_S32x16)
          (matmul dot_S32x65536_S16x65536_S32x16_1_1_0_0_n_n none (hiMat (shapeCast S1x65536 d shapeCasts_S1x1x65536_S1x65536))
            (mulf (loMat (shapeCast S1x65536 d shapeCasts_S1x1x65536_S1x65536))
              (broadcastTo S16x65536 (truncf .bf16 (shapeCast S1x65536 x shapeCasts_S1x1x65536_S1x65536) bitsLt_bf16_f32)
                broadcasts_S1x65536_S16x65536))
            (constant S32x16 .f32 0x00000000#32)))
          (matmul dot_S32x65536_S16x65536_S32x16_1_1_0_0_n_n none (hiMat (shapeCast S1x65536 d shapeCasts_S1x1x65536_S1x65536))
            (mulf (loMat (shapeCast S1x65536 d shapeCasts_S1x1x65536_S1x65536))
              (broadcastTo S16x65536
                (truncf .bf16 (subf (shapeCast S1x65536 x shapeCasts_S1x1x65536_S1x65536)
                  (shapeCast S1x65536 x shapeCasts_S1x1x65536_S1x65536)) bitsLt_bf16_f32)
                broadcasts_S1x65536_S16x65536))
            (constant S32x16 .f32 0x00000000#32)) := rfl

/-- A column of row numbers spread along the rows reads the row number. -/
theorem rowNo32_at (h : Fin 32) (e : Fin 65536) :
    broadcastTo S32x65536 (iota .tc S32x1 32 [0] iota_S32x1_d0_w32) broadcasts_S32x1_S32x65536 (ix2 h e)
      = BitVec.ofNat 32 h.val := by
  refine (broadcastTo_apply _ broadcasts_S32x1_S32x65536 (ix2 h e) (ix2 h (0 : Fin 1)) fun ax => ?_).trans ?_
  · match ax with
    | ⟨0, _⟩ => rfl
    | ⟨1, _⟩ => rfl
  · exact iota_single_apply .tc S32x1 32 0 iota_S32x1_d0_w32 _

/-- The same for the sixteen-row column. -/
theorem rowNo16_at (l : Fin 16) (e : Fin 65536) :
    broadcastTo S16x65536 (iota .tc S16x1 32 [0] iota_S16x1_d0_w32) broadcasts_S16x1_S16x65536 (ix2 l e)
      = BitVec.ofNat 32 l.val := by
  refine (broadcastTo_apply _ broadcasts_S16x1_S16x65536 (ix2 l e) (ix2 l (0 : Fin 1)) fun ax => ?_).trans ?_
  · match ax with
    | ⟨0, _⟩ => rfl
    | ⟨1, _⟩ => rfl
  · exact iota_single_apply .tc S16x1 32 0 iota_S16x1_d0_w32 _

/-- On the vector unit an arithmetic shift right by the literal four is the word's arithmetic shift by four. -/
theorem shrsi_four (w : BitVec 32) : IntOp.shrsi .vector w 4#32 = w.sshiftRight 4 := by
  unfold IntOp.shrsi
  rw [if_pos (by decide)]
  rfl

/-- Entry `(h, e)` of the high one-hot matrix. -/
theorem hi_at (d6 : IVec S1x65536 32) (h : Fin 32) (e : Fin 65536) :
    hiMat d6 (ix2 h e)
      = if (d6 (ix2 (0 : Fin 1) e)).sshiftRight 4 = BitVec.ofNat 32 h.val then 1 else 0 := by
  show (FloatOps.sitofp (F := Ideal) .f32 ((IntOp.cmpi .eq
      (broadcastTo S32x65536 (shrsi d6 (broadcast S1x65536 4#32)) broadcasts_S1x65536_S32x65536 (ix2 h e))
      (broadcastTo S32x65536 (iota .tc S32x1 32 [0] iota_S32x1_d0_w32) broadcasts_S32x1_S32x65536 (ix2 h e))).setWidth 32) : EReal) = _
  rw [onehot_word, rowNo32_at, broadcastTo_1b_ab_apply]
  show (if IntOp.shrsi .vector (d6 (ix2 (0 : Fin 1) e)) 4#32 = BitVec.ofNat 32 h.val then (1 : EReal) else 0) = _
  rw [shrsi_four]

/-- Entry `(l, e)` of the low one-hot matrix. -/
theorem lo_at (d6 : IVec S1x65536 32) (l : Fin 16) (e : Fin 65536) :
    loMat d6 (ix2 l e)
      = if d6 (ix2 (0 : Fin 1) e) &&& 15#32 = BitVec.ofNat 32 l.val then 1 else 0 := by
  show (FloatOps.sitofp (F := Ideal) .f32 ((IntOp.cmpi .eq
      (broadcastTo S16x65536 (andi d6 (broadcast S1x65536 15#32)) broadcasts_S1x65536_S16x65536 (ix2 l e))
      (broadcastTo S16x65536 (iota .tc S16x1 32 [0] iota_S16x1_d0_w32) broadcasts_S16x1_S16x65536 (ix2 l e))).setWidth 32) : EReal) = _
  rw [onehot_word, rowNo16_at, broadcastTo_1b_ab_apply]
  rfl

/-- One edge's term of the product: the value where both one-hot entries are set, which is where the word is the bin. -/
theorem term_at (w : BitVec 32) (v : EReal) (h : Fin 32) (l : Fin 16) :
    (if w.sshiftRight 4 = BitVec.ofNat 32 h.val then (1 : EReal) else 0)
        * ((if w &&& 15#32 = BitVec.ofNat 32 l.val then (1 : EReal) else 0) * v)
      = pick w (16 * h.val + l.val) v := by
  unfold pick
  by_cases h1 : w.sshiftRight 4 = BitVec.ofNat 32 h.val
  · by_cases h2 : w &&& 15#32 = BitVec.ofNat 32 l.val
    · rw [if_pos h1, if_pos h2, one_mul, one_mul, if_pos ((word_split w h l).mp ⟨h1, h2⟩)]
    · rw [if_pos h1, if_neg h2, zero_mul, mul_zero,
        if_neg fun hw => h2 ((word_split w h l).mpr hw).2]
  · rw [if_neg h1, zero_mul, if_neg fun hw => h1 ((word_split w h l).mpr hw).1]

/-- The tile's words, viewed as a row, read the edge's word. -/
theorem dw_at (d : Vec Ideal S1x1x65536 .i32) (e : Fin 65536) :
    shapeCast S1x65536 d shapeCasts_S1x1x65536_S1x65536 (ix2 (0 : Fin 1) e) = d (ix3 0 0 e) :=
  shapeCast_1ab_ab_apply d shapeCasts_S1x1x65536_S1x65536 0 e

/-- The tile's values, viewed as a row and spread over the sixteen rows, read the edge's value. -/
theorem xs_at (x : Vec Ideal S1x1x65536 .f32) (l : Fin 16) (e : Fin 65536) :
    broadcastTo S16x65536
        (truncf .bf16 (shapeCast S1x65536 x shapeCasts_S1x1x65536_S1x65536 : FVec Ideal S1x65536 .f32) bitsLt_bf16_f32 :
          FVec Ideal S1x65536 .bf16)
        broadcasts_S1x65536_S16x65536 (ix2 l e) = x (ix3 0 0 e) := by
  refine (broadcastTo_1b_ab_apply _ broadcasts_S1x65536_S16x65536 l e).trans ?_
  show shapeCast S1x65536 x shapeCasts_S1x1x65536_S1x65536 (ix2 (0 : Fin 1) e) = _
  exact shapeCast_1ab_ab_apply x shapeCasts_S1x1x65536_S1x65536 0 e

/-- A finite value less itself is zero, so the second product's row is zero. -/
theorem xs0_at (x : Vec Ideal S1x1x65536 .f32) (hx : ∀ y, ∃ r : ℝ, x y = (r : EReal)) (l : Fin 16) (e : Fin 65536) :
    broadcastTo S16x65536
        (truncf .bf16 (subf (shapeCast S1x65536 x shapeCasts_S1x1x65536_S1x65536 : FVec Ideal S1x65536 .f32)
          (shapeCast S1x65536 x shapeCasts_S1x1x65536_S1x65536)) bitsLt_bf16_f32 : FVec Ideal S1x65536 .bf16)
        broadcasts_S1x65536_S16x65536 (ix2 l e) = 0 := by
  refine (broadcastTo_1b_ab_apply _ broadcasts_S1x65536_S16x65536 l e).trans ?_
  show shapeCast S1x65536 x shapeCasts_S1x1x65536_S1x65536 (ix2 (0 : Fin 1) e)
      - shapeCast S1x65536 x shapeCasts_S1x1x65536_S1x65536 (ix2 (0 : Fin 1) e) = (0 : EReal)
  rw [shapeCast_1ab_ab_apply x shapeCasts_S1x1x65536_S1x65536 0 e]
  obtain ⟨r, hr⟩ := hx (ix3 0 0 e)
  rw [hr, ← EReal.coe_sub, sub_self, EReal.coe_zero]

/-- The reset value is zero everywhere. -/
theorem reset_at (y : S1x32x16.Idx) : (k0_pay2 (F := Ideal)) y = 0 := by
  unfold k0_pay2
  show Ideal.ofBits .f32 0x00000000#32 = 0
  exact Ideal.ofBits_zero_f32

/-- One point's update of the accumulator at entry `(h, l)`: what was there plus the tile's segment sum at bin
    `16 h + l`, for a tile of finite values. -/
theorem step_at (x : Vec Ideal S1x1x65536 .f32) (d : Vec Ideal S1x1x65536 .i32) (s : Vec Ideal S1x32x16 .f32)
    (hx : ∀ y, ∃ r : ℝ, x y = (r : EReal)) (h : Fin 32) (l : Fin 16) :
    k0_pay1 (F := Ideal) (k0_pay3 (F := Ideal) x d s) (ix3 0 h l)
      = s (ix3 0 h l) + segSum (fun e : Fin 65536 => x (ix3 0 0 e)) (fun e : Fin 65536 => d (ix3 0 0 e)) (16 * h.val + l.val) := by
  rw [pay3_eq]
  unfold k0_pay1
  rw [shapeCast_ab_1ab_apply, addf_apply, addf_apply, shapeCast_1ab_ab_apply, dot_at, dot_at]
  unfold segSum
  refine (congrArg₂ (· + ·) (congrArg (s (ix3 0 h l) + ·) (Finset.sum_congr rfl fun e _ => ?_))
    (Finset.sum_eq_zero fun e _ => ?_)).trans (add_zero _)
  · -- the first product: term `e` is the edge's value where its word is the bin `16 h + l`
    rw [mulf_apply, hi_at, lo_at, xs_at, dw_at, term_at]
  · -- the second product: every term has the factor `x e - x e = 0`
    rw [mulf_apply, xs0_at x hx l e, mul_zero, mul_zero]

end Cert.KernelIdeal.StepAt

end
-- ==== Proof.KIV.AccValue.lean ====
import proofs.«405905_j64458869178769_3_alg».proof.Proof.KIV.Entry
import proofs.«405905_j64458869178769_3_alg».proof.Proof.KIV.Pieces
import proofs.«405905_j64458869178769_3_alg».proof.Proof.StepAt

/-! The accumulator, point by point, over the extended reals.

After tile `j` of half `c` the accumulator's entry `(h, l)` is the sum, over the half's tiles `0 … j`, of each tile's
segment sum at bin `16 h + l`: by induction on the point, a half's first tile starting again from zero. The products
must be finite: the body splits each into a leading part and a remainder `x - x`, which is zero only for a finite `x`. -/

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Seg Cert.KernelIdeal.StepAt

variable (m : (ℓ : Loc nD τ sig) → Buf (Elt Ideal) ℓ)

/-- Core `c`'s per-edge products, as the region finds them. -/
def prodOf (c : Dev nD) : Fin 16777216 → EReal := fun e => (V m c main_v10 : S16777216.Idx → Elt Ideal .f32) (ix1 e)
/-- Core `c`'s destination words. -/
def wordOf (c : Dev nD) : Fin 16777216 → BitVec 32 := fun e => (m ((c : Thread nD τ).loc main_arg4) : S16777216.Idx → Elt Ideal .i32) (ix1 e)

/-- The half a point belongs to. -/
def halfOf (n : ℕ) (hn : n < cfg0.N) : Fin 2 := ⟨n / 128, half_lt ⟨n, hn⟩⟩

theorem halfOf_eq {n n' : ℕ} (hn : n < cfg0.N) (hn' : n' < cfg0.N) (h : n / 128 = n' / 128) : halfOf n hn = halfOf n' hn' :=
  Fin.ext h

/-- Every index of a [1, 1, 65536] block is `(0, 0, e)`. -/
theorem tile_idx (y : S1x1x65536.Idx) : y = ix3 (0 : Fin 1) (0 : Fin 1) (y 2 : Fin 65536) := by
  funext a
  match a with
  | ⟨0, _⟩ => exact Subsingleton.elim (α := Fin 1) _ _
  | ⟨1, _⟩ => exact Subsingleton.elim (α := Fin 1) _ _
  | ⟨2, _⟩ => rfl

/-- Every index of a [1, 32, 16] block is `(0, h, l)`. -/
theorem acc_idx (y : S1x32x16.Idx) : y = ix3 (0 : Fin 1) (y 1 : Fin 32) (y 2 : Fin 16) := by
  funext a
  match a with
  | ⟨0, _⟩ => exact Subsingleton.elim (α := Fin 1) _ _
  | ⟨1, _⟩ => rfl
  | ⟨2, _⟩ => rfl

/-- One point's update read at entry `(h, l)`: what was there plus the point's tile's segment sum at bin `16 h + l`. -/
theorem update_at (c : Dev nD) (hfin : ∀ e, ∃ r : ℝ, prodOf m c e = (r : EReal)) (t : Fin cfg0.N)
    (s : Vec Ideal S1x32x16 .f32) (h : Fin 32) (l : Fin 16) :
    update (iblk m c 0 t) (iblk m c 1 t) s (ix3 0 h l)
      = s (ix3 0 h l) + tileSum (prodOf m c) (wordOf m c) (halfOf t.val t.isLt) (t.val % 128) (16 * h.val + l.val) := by
  have hx : ∀ y : S1x1x65536.Idx, ∃ r : ℝ, (iblk m c 0 t : S1x1x65536.Idx → Elt Ideal .f32) y = (r : EReal) := by
    intro y
    obtain ⟨r, hr⟩ := hfin (edgeAt (halfOf t.val t.isLt) ⟨t.val % 128, tile_lt t⟩ (y 2))
    exact ⟨r, (congrArg (iblk m c 0 t : S1x1x65536.Idx → Elt Ideal .f32) (tile_idx y)).trans ((iblk0_at m c t (y 2)).trans hr)⟩
  unfold update
  refine (step_at (iblk m c 0 t) (iblk m c 1 t) s hx h l).trans ?_
  unfold tileSum
  rw [dif_pos (tile_lt t)]
  have e0 : (fun e : Fin 65536 => (iblk m c 0 t : S1x1x65536.Idx → Elt Ideal .f32) (ix3 0 0 e))
      = fun e => prodOf m c (edgeAt (halfOf t.val t.isLt) ⟨t.val % 128, tile_lt t⟩ e) :=
    funext fun e => iblk0_at m c t e
  have e1 : (fun e : Fin 65536 => (iblk m c 1 t : S1x1x65536.Idx → Elt Ideal .i32) (ix3 0 0 e))
      = fun e => wordOf m c (edgeAt (halfOf t.val t.isLt) ⟨t.val % 128, tile_lt t⟩ e) :=
    funext fun e => iblk1_at m c t e
  rw [e0, e1]

/-- After the body at position `n`, entry `(h, l)` of the accumulator is the position's half's running total over its
    tiles up to this one, at bin `16 h + l`. -/
theorem acc_value (c : Dev nD) (hfin : ∀ e, ∃ r : ℝ, prodOf m c e = (r : EReal)) :
    ∀ (n : ℕ) (hn : n < cfg0.N) (h : Fin 32) (l : Fin 16),
      (accAt m c n hn : S1x32x16.Idx → Elt Ideal .f32) (ix3 0 h l)
        = halfSum (prodOf m c) (wordOf m c) (halfOf n hn) (n % 128 + 1) (16 * h.val + l.val) := by
  intro n
  induction n with
  | zero =>
    intro hn h l
    rw [accAt_first m c ⟨0, hn⟩ (Nat.zero_mod _), accFirst_eq, update_at m c hfin, reset_at, zero_add]
    show tileSum _ _ (halfOf 0 hn) (0 % 128) _ = halfSum _ _ (halfOf 0 hn) (0 % 128 + 1) _
    rw [Nat.zero_mod, halfSum_succ, halfSum_zero, zero_add]
  | succ n ih =>
    intro hn h l
    have hn' : n < cfg0.N := Nat.lt_of_succ_lt hn
    by_cases h0 : (n + 1) % 128 = 0
    · rw [accAt_first m c ⟨n + 1, hn⟩ h0, accFirst_eq, update_at m c hfin, reset_at, zero_add]
      show tileSum _ _ (halfOf (n + 1) hn) ((n + 1) % 128) _ = _
      rw [h0, halfSum_succ, halfSum_zero, zero_add]
    · have key : (accAt m c (n + 1) hn : S1x32x16.Idx → Elt Ideal .f32) (ix3 0 h l)
          = (accAt m c n hn' : S1x32x16.Idx → Elt Ideal .f32) (ix3 0 h l)
            + tileSum (prodOf m c) (wordOf m c) (halfOf (n + 1) hn) ((n + 1) % 128) (16 * h.val + l.val) := by
        by_cases h1 : (n + 1) % 128 = 127
        · rw [accAt_last m c ⟨n + 1, hn⟩ h0 h1, accLast_eq]
          exact update_at m c hfin ⟨n + 1, hn⟩ _ h l
        · rw [accAt_middle m c ⟨n + 1, hn⟩ h0 h1, accMiddle_eq]
          exact update_at m c hfin ⟨n + 1, hn⟩ _ h l
      rw [key, ih hn' h l, halfOf_eq hn' hn (by omega), show n % 128 + 1 = (n + 1) % 128 from by omega, ← halfSum_succ]

/-- At a half's last tile the output block is the accumulator just updated. -/
theorem outAt_eq_acc (c : Dev nD) (t : Fin cfg0.N) (h1 : t.val % 128 = 127) :
    outAt m c t = accAt m c t.val t.isLt := by
  have h0 : ¬t.val % 128 = 0 := by omega
  rw [outAt_last m c t h1, outLast_eq, accAt_last m c t h0 h1, accLast_eq]

/-- So at a half's last tile entry `(h, l)` of the output block is the half's total over all its tiles at bin `16 h + l`. -/
theorem out_value (c : Dev nD) (hfin : ∀ e, ∃ r : ℝ, prodOf m c e = (r : EReal)) (t : Fin cfg0.N) (h1 : t.val % 128 = 127)
    (h : Fin 32) (l : Fin 16) :
    (outAt m c t : S1x32x16.Idx → Elt Ideal .f32) (ix3 0 h l)
      = halfSum (prodOf m c) (wordOf m c) (halfOf t.val t.isLt) 128 (16 * h.val + l.val) := by
  rw [outAt_eq_acc m c t h1, acc_value m c hfin t.val t.isLt h l, h1]

end Cert.KernelIdeal.Hand

end
-- ==== Proof.KIV.Final.lean ====
import proofs.«405905_j64458869178769_3_alg».proof.Proof.KIV.AccValue
import Idealize.ShloMosaic.PureOps.Ideal.Laws
import Idealize.ShloMosaic.Lib.ValueLayout

/-! The kernel's result, over the extended reals.

The region writes each half's total to its block of the [2, 32, 16] array; the host then adds the two halves and re-lays
the [32, 16] sums as [1, 512]: entry `(0, b)` is the segment sum over all the edges at bin `b`. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Seg

variable (m : (ℓ : Loc nD τ sig) → Buf (Elt Ideal) ℓ) (ρ : Dev nD → PrngReg)

/-- What the region's result array ends holding: entry `(a, h, l)` is half `a`'s total at bin `16 h + l`. -/
def halves (c : Dev nD) : S2x32x16.Idx → Elt Ideal .f32 :=
  fun i => halfSum (prodOf m c) (wordOf m c) (i 0) 128 (16 * (i 1).val + (i 2).val)

theorem out_sizes : ∀ t : Fin cfg0.N,
    win0_2.xsize (grid0.coords t) 0 = 1 ∧ win0_2.xsize (grid0.coords t) 1 = 32 ∧ win0_2.xsize (grid0.coords t) 2 = 16 :=
  (by decide +kernel : ∀ t : Fin grid0.N,
    win0_2.xsize (grid0.coords t) 0 = 1 ∧ win0_2.xsize (grid0.coords t) 1 = 32 ∧ win0_2.xsize (grid0.coords t) 2 = 16)

/-- A half's last tile writes back that half's block of `halves`. -/
theorem flushed_eq (c : Dev nD) (hfin : ∀ e, ∃ r : ℝ, prodOf m c e = (r : EReal)) (t : Fin cfg0.N)
    (hf : (cfg0.win 2).flush t = true) :
    (dats m 0 c).flushed 2 t = ((cfg0.win 2).blk t).view.read (Elt Ideal) (halves m c) := by
  have h1 : t.val % 128 = 127 := (flush0_2 t).mp hf
  have hi := (index_facts t).2.2
  show (cfg0.win 2).cut (grid0.coords t) ((dats m 0 c).after 2 t) = _
  rw [after_2]
  funext y
  rw [View.read_apply]
  show (outAt m c t : S1x32x16.Idx → Elt Ideal .f32) y = halves m c (((cfg0.win 2).blk t).view.emb y)
  obtain ⟨p, q, rfl⟩ : ∃ (p : Fin 32) (q : Fin 16), y = ix3 0 p q :=
    ⟨y 1, y 2, acc_idx y⟩
  have hpos : (((cfg0.win 2).blk t).view.emb (ix3 0 p q) : S2x32x16.Idx) = ix3 (halfOf t.val t.isLt) p q := by
    funext a
    apply Fin.ext
    match a with
    | ⟨0, _⟩ => show win0_2.index t 0 * 1 + 1 * 0 = t.val / 128; rw [hi.1]; omega
    | ⟨1, _⟩ => show win0_2.index t 1 * 32 + 1 * p.val = p.val; rw [hi.2.1]; omega
    | ⟨2, _⟩ => show win0_2.index t 2 * 16 + 1 * q.val = q.val; rw [hi.2.2]; omega
  rw [hpos, out_value m c hfin t h1 p q]
  rfl

/-- The two halves' last tiles cover the result array, so it ends holding `halves`. -/
theorem final (c : Dev nD) (hfin : ∀ e, ∃ r : ℝ, prodOf m c e = (r : EReal)) :
    (dats m 0 c).arrAt 2 cfg0.N = halves m c :=
  (dats m 0 c).arrAt_eq_of_cover 2 (halves m c) (flushed_eq m c hfin) fun i => by
    have hN : cfg0.N = 256 := N_0
    have hi0 : (i 0 : Nat) < 2 := (i 0).isLt
    have hi1 : (i 1 : Nat) < 32 := (i 1).isLt
    have hi2 : (i 2 : Nat) < 16 := (i 2).isLt
    have hlt : (i 0 : Nat) * 128 + 127 < cfg0.N := by omega
    refine ⟨⟨(i 0 : Nat) * 128 + 127, hlt⟩, (flush0_2 _).mpr (by show ((i 0 : Nat) * 128 + 127) % 128 = 127; omega), ?_⟩
    have hidx := (index_facts ⟨(i 0 : Nat) * 128 + 127, hlt⟩).2.2
    have hsz := out_sizes ⟨(i 0 : Nat) * 128 + 127, hlt⟩
    show i ∈ ((View.whole main_v13).slice (win0_2.rect ⟨(i 0 : Nat) * 128 + 127, hlt⟩)).set
    rw [View.set_slice_whole, Rect.mem_set_unit]
    intro a
    match a with
    | ⟨0, _⟩ =>
      show win0_2.index ⟨(i 0 : Nat) * 128 + 127, hlt⟩ 0 * win0_2.size 0 ≤ (i 0 : Nat) ∧ (i 0 : Nat) < win0_2.index ⟨(i 0 : Nat) * 128 + 127, hlt⟩ 0 * win0_2.size 0 + win0_2.xsize (grid0.coords ⟨(i 0 : Nat) * 128 + 127, hlt⟩) 0
      rw [hidx.1, hsz.1, show win0_2.size 0 = 1 from rfl]
      show ((i 0 : Nat) * 128 + 127) / 128 * 1 ≤ (i 0 : Nat) ∧ (i 0 : Nat) < ((i 0 : Nat) * 128 + 127) / 128 * 1 + 1
      omega
    | ⟨1, _⟩ =>
      show win0_2.index ⟨(i 0 : Nat) * 128 + 127, hlt⟩ 1 * win0_2.size 1 ≤ (i 1 : Nat) ∧ (i 1 : Nat) < win0_2.index ⟨(i 0 : Nat) * 128 + 127, hlt⟩ 1 * win0_2.size 1 + win0_2.xsize (grid0.coords ⟨(i 0 : Nat) * 128 + 127, hlt⟩) 1
      rw [hidx.2.1, hsz.2.1]; omega
    | ⟨2, _⟩ =>
      show win0_2.index ⟨(i 0 : Nat) * 128 + 127, hlt⟩ 2 * win0_2.size 2 ≤ (i 2 : Nat) ∧ (i 2 : Nat) < win0_2.index ⟨(i 0 : Nat) * 128 + 127, hlt⟩ 2 * win0_2.size 2 + win0_2.xsize (grid0.coords ⟨(i 0 : Nat) * 128 + 127, hlt⟩) 2
      rw [hidx.2.2, hsz.2.2]; omega

/-- The host operations after the region, as one function of the region's result array. -/
def tail (A : S2x32x16.Idx → Elt Ideal .f32) : S1x512.Idx → Elt Ideal .f32 :=
  shapeCast S1x512 (Host.reduceAdd (F := Ideal) A (constant (F := Ideal) S_ .f32 0x00000000#32) reducesTo_S2x32x16_S32x16_d0 h_S_) shapeCasts_S32x16_S1x512

/-- What @main's result holds after the run: the tail of what the region left. -/
theorem result_eq_tail (c : Dev nD) :
    (Pipeline.afterTail₀ cfgs (dats m) 0 (V0 m) [hostOps1] c main_v15 : S1x512.Idx → Elt Ideal .f32)
      = tail ((dats m 0 c).arrAt 2 cfg0.N) := by
  unfold Pipeline.afterTail₀
  show StableHlo.after hostOps1 _ (Proc.devRef .tc main_v15) = _
  after_results
  have e := Pipeline.withArrays_arr spec0 launch0.win.arr_inj c (V0 m c) (fun w => (dats m 0 c).arrAt w (cfgs 0).N) 2
  refine Eq.trans ?_ (congrArg tail e)
  rfl

/-- Adding the two halves at `(h, l)` and reading the re-laid sums at `(0, 16 h + l)`. -/
theorem tail_at (A : S2x32x16.Idx → Elt Ideal .f32) (b : Fin 512) :
    tail A (ix2 0 b)
      = A (ix3 0 ⟨b.val / 16, by have := b.isLt; omega⟩ ⟨b.val % 16, Nat.mod_lt _ (by decide)⟩)
        + A (ix3 1 ⟨b.val / 16, by have := b.isLt; omega⟩ ⟨b.val % 16, Nat.mod_lt _ (by decide)⟩) := by
  have hred : S2x32x16.Reduces [0] S32x16 := by decide
  unfold tail
  rw [shapeCast_apply _ shapeCasts_S32x16_S1x512 (ix2 0 b) (ix2 ⟨b.val / 16, by have := b.isLt; omega⟩ ⟨b.val % 16, Nat.mod_lt _ (by decide)⟩)
    (by rw [Shape.rowMajor_val_two, Shape.rowMajor_val_two]
        show b.val / 16 * 16 + b.val % 16 = 0 * 512 + b.val
        omega)]
  unfold Host.reduceAdd
  rw [Ideal.hostReduceAdd_def, Ideal.hostReduceAdd_single _ hred]
  show Ideal.ofBits .f32 0x00000000#32 + ∑ k : Fin 2, A (hred.lift _ k) = _
  rw [Ideal.ofBits_zero_f32, zero_add, Fin.sum_univ_two]
  congr 1 <;> (congr 1; funext a; apply Fin.ext; match a with | ⟨0, _⟩ => rfl | ⟨1, _⟩ => rfl | ⟨2, _⟩ => rfl)

/-- Entry `(0, b)` of the kernel's result is the segment sum of the products over all the edges at bin `b`. -/
theorem result_at (c : Dev nD) (hfin : ∀ e, ∃ r : ℝ, prodOf m c e = (r : EReal)) (b : Fin 512) :
    (Pipeline.afterTail₀ cfgs (dats m) 0 (V0 m) [hostOps1] c main_v15 : S1x512.Idx → Elt Ideal .f32) (ix2 0 b)
      = segSum (prodOf m c) (wordOf m c) b.val := by
  rw [result_eq_tail, final m c hfin, tail_at]
  unfold halves
  show halfSum _ _ 0 128 (16 * (b.val / 16) + b.val % 16) + halfSum _ _ 1 128 (16 * (b.val / 16) + b.val % 16) = _
  rw [show 16 * (b.val / 16) + b.val % 16 = b.val from by omega, halves_add]

/-- The run, read: @main's result ends at what the tail leaves, the six argument arrays as launched. -/
theorem run_value : θ_run defs (onTc (τ := τ) (main (F := Ideal))) ⟨m, fun _ => 0, ρ⟩ (fun r => ∀ c : Dev nD,
      r.2.mem ((c.tc : Thread nD τ).loc main_v15) = Pipeline.afterTail₀ cfgs (dats m) 0 (V0 m) [hostOps1] c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v15 (Pipeline.mem_restRefs_of main_v15 (by decide) (by decide)),
     ((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c)⟩) (run_main m ρ)

end Cert.KernelIdeal.Hand

end
-- ==== Proof.RefFrame.lean ====
import proofs.«405905_j64458869178769_3_alg».proof.Defs
import proofs.«405905_j64458869178769_3_alg».proof.Proof.Gen.ReferenceIdeal
import proofs.«405905_j64458869178769_3_alg».proof.Proof.Gen.Pre_finite_inputs
import proofs.«405905_j64458869178769_3_alg».proof.Proof.Gen.ReferenceIdeal.Run
import proofs.«405905_j64458869178769_3_alg».proof.Proof.Gen.ReferenceIdeal.Read

noncomputable section

open Idealize.ShloMosaic Idealize.ShloMosaic.TcCoe Idealize.SL.Sem

namespace Cert.Proof.RefSide

/-- The reference is a straight line of host operations: it runs to the end and writes no argument. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.RefValue.lean ====
import proofs.«405905_j64458869178769_3_alg».proof.Proof.Gen.ReferenceIdeal
import proofs.«405905_j64458869178769_3_alg».proof.Proof.Gen.ReferenceIdeal.Read
import proofs.«405905_j64458869178769_3_alg».proof.Proof.Spec
import Idealize.ShloMosaic.Lib.ValueIdx
import Idealize.ShloMosaic.Lib.ValueIdxRank1
import Idealize.ShloMosaic.PureOps.Ideal.Laws

/-! The reference read at an index, over the extended reals.

The host scatter adds update `e` to the bin its index word names, read signed, and drops it when the word is not a bin:
bin `b` of the result is the segment sum at `b`. -/

noncomputable section

namespace Cert.ReferenceIdeal.RefValue

open Idealize.ShloMosaic Idealize.ShloMosaic.ValueIdx Cert.ReferenceIdeal Cert.ReferenceIdeal.Gen Cert.ReferenceIdeal.Read Cert.Seg

/-- The per-edge products `table[src] * w`, as the reference computes them. -/
abbrev products (x0 x1 : FVec Ideal S131072 .f32) (x2 : FVec Ideal S64x512 .f32) (x3 : IVec S16777216 32) (x5 : FVec Ideal S16777216 .f32) :
    FVec Ideal S16777216 .f32 := val_main_v10 (F := Ideal) x0 x1 x2 x3 x5

/-! ## The scatter's dimension numbers, read for one update

The operand has one axis (the bins), which is an inserted window axis and the one axis the index vector names; the index
operand has one row per update and one column. So update `j` has no window coordinate, and its start on the bins' axis
is the word in row `j`, column 0 of the index operand, read signed. -/

/-- The scatter's dimension numbers. -/
abbrev binDims : ScatterDims S512 S16777216x1 S16777216 := scatter_S512_S16777216x1_S16777216_n_0_0_1

/-- Update `j` reads its start index at row `j`, column 0 of the index operand. -/
theorem siIdx_eq (j : S16777216.Idx) (c : Fin binDims.scatterDimsToOperandDims.length) :
    binDims.siIdx j c = ix2 (j 0) 0 := by
  funext b
  refine Fin.ext ?_
  match b with
  | ⟨0, _⟩ => rfl
  | ⟨1, _⟩ =>
    show c.val = 0
    have : c.val < 1 := c.isLt
    omega

/-- The start of update `j` on the bins' axis is its index word, read signed. -/
theorem start_eq (j : S16777216.Idx) (idx : IVec S16777216x1 32) (a : Fin S512.rank) :
    binDims.start j idx a = (idx (ix2 (j 0) 0)).toInt := by
  obtain rfl : a = 0 := Subsingleton.elim _ _
  unfold ScatterDims.start
  rw [dif_pos (show (0 : Fin S512.rank) ∈ binDims.scatterDimsToOperandDims from List.mem_singleton.mpr rfl), siIdx_eq]
  rfl

/-- The bins' axis is inserted: an update has no window coordinate on it. -/
theorem window_eq (j : S16777216.Idx) (a : Fin S512.rank) : binDims.window j a = 0 := by
  obtain rfl : a = 0 := Subsingleton.elim _ _
  unfold ScatterDims.window
  rw [dif_neg (show ¬ (0 : Fin S512.rank) ∈ binDims.sKept by decide)]

/-- Update `j` lands on bin `i` exactly when its index word, read signed, is `i`. -/
theorem resultIdx?_eq_some (j : S16777216.Idx) (idx : IVec S16777216x1 32) (i : S512.Idx) :
    binDims.resultIdx? j idx = some i ↔ (idx (ix2 (j 0) 0)).toInt = ((i 0).val : ℤ) := by
  have hi : (i 0).val < 512 := (i 0).isLt
  unfold ScatterDims.resultIdx?
  constructor
  · intro h
    split at h
    · rename_i H
      have h0 := (H 0).1
      have h1 : (i 0).val = (binDims.start j idx 0 + (binDims.window j 0 : ℤ)).toNat := by
        rw [← Option.some.inj h]
      rw [start_eq, window_eq] at h0 h1
      omega
    · exact absurd h (by simp)
  · intro h
    have H : ∀ a, 0 ≤ binDims.start j idx a + (binDims.window j a : ℤ) ∧ binDims.start j idx a + (binDims.window j a : ℤ) < (S512.size a : ℤ) := by
      intro a
      obtain rfl : a = 0 := Subsingleton.elim _ _
      rw [start_eq, window_eq, h]
      show (0 : ℤ) ≤ ((i 0).val : ℤ) + ((0 : ℕ) : ℤ) ∧ ((i 0).val : ℤ) + ((0 : ℕ) : ℤ) < ((512 : ℕ) : ℤ)
      omega
    rw [dif_pos H]
    congr 1
    funext a
    obtain rfl : a = 0 := Subsingleton.elim _ _
    refine Fin.ext ?_
    show (binDims.start j idx 0 + (binDims.window j 0 : ℤ)).toNat = (i 0).val
    rw [start_eq, window_eq, h]
    omega

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Bin `i` of a scatter-add with these dimension numbers: what was there, plus the updates whose index word, read
    signed, is `i`. -/
theorem scatter_at (Z : FVec Ideal S512 .f32) (I : IVec S16777216x1 32) (U : FVec Ideal S16777216 .f32) (i : S512.Idx) :
    Host.scatterAdd (F := Ideal) binDims Z I U i
      = Z i + ∑ j : S16777216.Idx, if (I (ix2 (j 0) 0)).toInt = ((i 0).val : ℤ) then U j else 0 := by
  show Ideal.hostScatterAdd binDims Z I U i = _
  unfold Ideal.hostScatterAdd
  rw [Finset.sum_filter]
  refine congrArg (fun t => Z i + t) (Finset.sum_congr rfl (fun j _ => ?_))
  exact if_congr (resultIdx?_eq_some j I i) rfl rfl

/-- Bin `b` of the reference's result is the segment sum of the products at `b`. -/
theorem ref_at (x0 x1 : FVec Ideal S131072 .f32) (x2 : FVec Ideal S64x512 .f32) (x3 x4 : IVec S16777216 32) (x5 : FVec Ideal S16777216 .f32)
    (b : Fin 512) :
    val_main_v14 (F := Ideal) x0 x1 x2 x3 x4 x5 (ix2 0 b)
      = segSum (fun e : Fin 16777216 => products x0 x1 x2 x3 x5 (ix1 e)) (fun e : Fin 16777216 => x4 (ix1 e)) b.val := by
  rw [val_main_v14_apply]
  show Host.scatterAdd (F := Ideal) binDims (val_main_v11 (F := Ideal)) (val_main_v12 (F := Ideal) x4)
      (val_main_v10 (F := Ideal) x0 x1 x2 x3 x5) (idx_main_v14 (ix2 0 b)) = _
  rw [scatter_at, val_main_v11_apply, val_main_cst_1_apply]
  show Ideal.ofBits .f32 0x00000000#32 + _ = _
  rw [Ideal.ofBits_zero_f32, zero_add, sum_idx1]
  unfold segSum pick
  refine Finset.sum_congr rfl (fun e _ => ?_)
  have hrow : idx_main_v12 (ix2 ((ix1 e : S16777216.Idx) 0) (0 : Fin 1)) = ix1 e := by
    funext a
    match a with
    | ⟨0, _⟩ => rfl
  rw [val_main_v12_apply, hrow]

end Cert.ReferenceIdeal.RefValue

end
-- ==== Proof.RefFinite.lean ====
import proofs.«405905_j64458869178769_3_alg».proof.Proof.Gen.ReferenceIdeal
import proofs.«405905_j64458869178769_3_alg».proof.Proof.Gen.Pre_finite_inputs
import proofs.«405905_j64458869178769_3_alg».proof.Proof.Gen.ReferenceIdeal.Read
import proofs.«405905_j64458869178769_3_alg».proof.Proof.RefValue
import Idealize.ShloMosaic.Lib.ValueIdx
import Idealize.ShloMosaic.Lib.ReduceAll

/-! The per-edge products are finite under the precondition.

Each product is an entry of the concatenated table (an entry of one of the three float inputs, or the constant one) times
a weight; the precondition says every float input holds only finite numbers. -/

noncomputable section

namespace Cert.ReferenceIdeal.RefValue

open Idealize.ShloMosaic Idealize.ShloMosaic.ValueIdx Cert.ReferenceIdeal Cert.ReferenceIdeal.Gen Cert.ReferenceIdeal.Read Cert.Seg

namespace RefFinite

/-- An extended real that is a real number. -/
def IsReal (x : EReal) : Prop := ∃ r : ℝ, x = (r : EReal)

/-- A product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- An extended real whose absolute value is below `+∞` is a real number: of the two infinities, `+∞` is its own
    absolute value and `-∞` has `+∞` for it. -/
theorem isReal_of_abs_lt_top {x : EReal} (h : max x (-x) < ⊤) : IsReal x := by
  induction x using EReal.rec with
  | bot => simp at h
  | coe r => exact ⟨r, rfl⟩
  | top => simp at h

/-- The pattern `0x7F800000` (sign 0, exponent all ones, fraction 0) denotes `+∞`. -/
theorem inf_bits : Ideal.ofBits .f32 0x7F800000#32 = ⊤ := by
  simp [Ideal.ofBits, Ideal.ieee]

/-- The pattern `0x3F800000` has an exponent field that is neither all ones nor zero: it denotes a real number (the number 1). -/
theorem isReal_one_bits : IsReal (Ideal.ofBits .f32 0x3F800000#32) := by
  simp only [Ideal.ofBits, Ideal.ieee]
  rw [if_neg (by decide), if_neg (by decide)]
  exact ⟨_, rfl⟩

/-- The element fact of the precondition, `|x| < +∞` as a one-bit word, read back. -/
theorem isReal_of_cmp {x : EReal}
    (h : Ideal.cmp .olt (max x (-x)) (Ideal.ofBits .f32 0x7F800000#32) = 1#1) : IsReal x := by
  rw [inf_bits] at h
  change BitVec.ofBool (decide (max x (-x) < ⊤)) = 1#1 at h
  by_cases hlt : max x (-x) < ⊤
  · exact isReal_of_abs_lt_top hlt
  · rw [decide_eq_false hlt] at h
    exact absurd h (by decide)

/-- Under the precondition every entry of the three float tables and every weight is a real number: the precondition is
    the conjunction of the four `all (|x| < +∞)`, and an `all` that holds holds at every index. -/
theorem inputs_real (x0 x1 : FVec Ideal S131072 .f32) (x2 : FVec Ideal S64x512 .f32) (x3 x4 : IVec S16777216 32) (x5 : FVec Ideal S16777216 .f32)
    (hpre : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x5 i)) := by
  haveI : Subsingleton Cert.Pre_finite_inputs.S_.Idx := ⟨fun a b => funext fun d => d.elim0⟩
  have h := congrFun hpre ix0
  dsimp only [Cert.Pre_finite_inputs.fn, Cert.Pre_finite_inputs.fn_part1, andi] at h
  obtain ⟨h012, h5⟩ := IntOp.andi_eq_one.1 h
  obtain ⟨h01, h2⟩ := IntOp.andi_eq_one.1 h012
  obtain ⟨h0, h1⟩ := IntOp.andi_eq_one.1 h01
  exact ⟨fun i => isReal_of_cmp (Host.reduce_andi_all _ _ _ _ _ h0 i),
    fun i => isReal_of_cmp (Host.reduce_andi_all _ _ _ _ _ h1 i),
    fun i => isReal_of_cmp (Host.reduce_andi_all _ _ _ _ _ h2 i),
    fun i => isReal_of_cmp (Host.reduce_andi_all _ _ _ _ _ h5 i)⟩

/-- Every entry of a concatenation is an entry of one of its pieces: the piece whose span along the joined axis holds the
    entry's coordinate. -/
theorem concatenate_mem {α : Type} {t : Shape} (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

/-- Every entry of the concatenated table is a real number when the three float tables hold only real numbers: its
    pieces are the first table, the second, the third flattened, and the constant one. -/
theorem table_real (x0 x1 : FVec Ideal S131072 .f32) (x2 : FVec Ideal S64x512 .f32)
    (h0 : ∀ i, IsReal (x0 i)) (h1 : ∀ i, IsReal (x1 i)) (h2 : ∀ i, IsReal (x2 i)) (k : S294913.Idx) :
    IsReal (val_main_v2 (F := Ideal) x0 x1 x2 k) := by
  unfold val_main_v2
  obtain ⟨p, hp, i, hi⟩ := concatenate_mem (0 : Fin S294913.rank)
    [⟨S131072, x0⟩, ⟨S131072, x1⟩, ⟨S32768, val_main_v0 (F := Ideal) x2⟩, ⟨S1, val_main_v1 (F := Ideal)⟩]
    concatenates_S131072_S131072_S32768_S1_S294913_d0 k
  rw [hi]
  simp only [List.mem_cons, List.not_mem_nil, or_false] at hp
  rcases hp with rfl | rfl | rfl | rfl
  · exact h0 i
  · exact h1 i
  · show IsReal (val_main_v0 (F := Ideal) x2 i)
    rw [val_main_v0_apply]
    exact h2 _
  · show IsReal (val_main_v1 (F := Ideal) i)
    rw [val_main_v1_apply, val_main_cst_apply]
    exact isReal_one_bits

end RefFinite

open RefFinite

/-- Under the precondition every product is a real number. -/
theorem products_finite (x0 x1 : FVec Ideal S131072 .f32) (x2 : FVec Ideal S64x512 .f32) (x3 x4 : IVec S16777216 32) (x5 : FVec Ideal S16777216 .f32)
    (hpre : Cert.Pre_finite_inputs.fn (F := Ideal) x0 x1 x2 x3 x4 x5 = fun _ => 1#1) (e : S16777216.Idx) :
    ∃ r : ℝ, products x0 x1 x2 x3 x5 e = (r : EReal) := by
  obtain ⟨h0, h1, h2, h5⟩ := inputs_real x0 x1 x2 x3 x4 x5 hpre
  -- the product is the gathered table entry times the weight; the gathered entry is the table at some index
  show IsReal (val_main_v10 (F := Ideal) x0 x1 x2 x3 x5 e)
  rw [val_main_v10_apply]
  exact IsReal.mul (table_real x0 x1 x2 h0 h1 h2 _) (h5 e)

end Cert.ReferenceIdeal.RefValue

end
-- ==== Proof.lean ====
/- The weighted segment sum: `out[0, b] = Σ over the edges e with dst[e] = b of table[src[e]] · w[e]`, 512 bins,
   16,777,216 edges, the table the concatenation of three inputs and the constant one.

   The kernel's program gathers and multiplies on the host exactly as the reference does, cuts the products and the
   destination words into 2 halves × 128 tiles of 65,536 edges, and per tile forms two one-hot matrices — the word's
   high part against the row number `h`, its low four bits against the column number `l` — whose product with the
   tile's values between them has, at `(h, l)`, the tile's segment sum at bin `16 h + l`; a per-half accumulator adds
   the tiles up, and the host adds the two halves. The reference is one host scatter-add. Over the extended reals the two
   are the same sum regrouped (addition there is commutative and associative); the one place finiteness is used is the
   body's split of a product into a leading part and the remainder `x - x`, which vanishes only for a finite `x` — and
   under the precondition every product is finite, being an entry of a finite input or the constant one, times a finite
   weight. A destination word that is no bin (negative, or 512 and above) is dropped by both sides: by the scatter
   because it lands outside the operand, by the kernel because its high part matches no row.

   The frames of the two kernel programs are one text at two instances; the reference's is its run. -/
import proofs.«405905_j64458869178769_3_alg».proof.Defs
import proofs.«405905_j64458869178769_3_alg».proof.Proof.Gen.Kernel
import proofs.«405905_j64458869178769_3_alg».proof.Proof.Gen.KernelIdeal
import proofs.«405905_j64458869178769_3_alg».proof.Proof.Gen.ReferenceIdeal
import proofs.«405905_j64458869178769_3_alg».proof.Proof.Gen.Pre_finite_inputs
import proofs.«405905_j64458869178769_3_alg».proof.Proof.K.Frame
import proofs.«405905_j64458869178769_3_alg».proof.Proof.KI.Frame
import proofs.«405905_j64458869178769_3_alg».proof.Proof.KIV.Final
import proofs.«405905_j64458869178769_3_alg».proof.Proof.RefFrame
import proofs.«405905_j64458869178769_3_alg».proof.Proof.RefValue
import proofs.«405905_j64458869178769_3_alg».proof.Proof.RefFinite
import Idealize.ShloMosaic.PureOps.IdealRules
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

/-- The one rewrite of the idealization: widening back a value just narrowed to bf16 is the identity on the extended
    reals, and the rounding through bf16 on words. -/
theorem preserves : Cert.preserves_Kernel_KernelIdeal :=
  IdealRules.truncf_extf.statement Cert.KernelIdeal.S1x65536 .f32 .bf16

/-- Every index of a [1, 512] array is `(0, b)`. -/
theorem out_idx (i : Cert.KernelIdeal.S1x512.Idx) : i = ix2 (0 : Fin 1) (i 1 : Fin 512) := by
  funext a
  match a with
  | ⟨0, _⟩ => exact Subsingleton.elim (α := Fin 1) _ _
  | ⟨1, _⟩ => rfl

/-- Both programs end with the segment sum of the same products at every bin. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m)
      [Cert.KernelIdeal.Gen.hostOps1] c Cert.KernelIdeal.main_v15, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v14_eq]
  have hprod : Cert.KernelIdeal.Hand.prodOf m c
      = fun e => Cert.ReferenceIdeal.RefValue.products
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) (ix1 e) := by
    funext e
    unfold Cert.KernelIdeal.Hand.prodOf
    rw [Cert.KernelIdeal.Hand.entry_products]
  have hfin : ∀ e, ∃ r : ℝ, Cert.KernelIdeal.Hand.prodOf m c e = (r : EReal) := by
    intro e
    rw [hprod]
    exact Cert.ReferenceIdeal.RefValue.products_finite _ _ _ _ _ _ (hpre c) (ix1 e)
  funext i
  rw [out_idx i]
  refine (Cert.ReferenceIdeal.RefValue.ref_at _ _ _ _ _ _ (i 1)).trans ?_
  refine Eq.trans ?_ (Cert.KernelIdeal.Hand.result_at m c hfin (i 1)).symm
  rw [hprod]
  rfl

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
